-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x64 : Shape := ⟨3, ![2048, 64, 64]⟩
abbrev S2048 : Shape := ⟨1, ![2048]⟩
abbrev S8192x512 : Shape := ⟨2, ![8192, 512]⟩
abbrev S_ : Shape := ⟨0, ![]⟩

class Facts : Prop where
  bcast_S_S2048x64x64 : S_.BroadcastsInDim S2048x64x64 (![] : Fin 0 → Fin S2048x64x64.rank)
  reducesTo_S2048x64x64_S_d0_1_2 : S2048x64x64.ReducesTo [0, 1, 2] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg2 : IVec S2048 32) (main_v15 : IVec S_ 1) (main_c_5 : IVec S_ 32) : IVec S_ 1 :=
  let main_v16 : IVec S2048 32 := broadcastInDim S2048 ![] bcast_S_S2048 main_c_5
  let main_v17 : IVec S2048 1 := cmpi .sge main_arg2 main_v16
  let main_c_6 : IVec S_ 32 := constantI S_ 32 128#32
  let main_v18 : IVec S2048 32 := broadcastInDim S2048 ![] bcast_S_S2048 main_c_6
  let main_v19 : IVec S2048 1 := cmpi .slt main_arg2 main_v18
  let main_v20 : IVec S2048 1 := andi main_v17 main_v19
  let main_c_7 : IVec S_ 1 := constantI S_ 1 1#1
  let main_v21 : IVec S_ 1 := (fun x v => Host.reduce IntOp.andi x v reducesTo_S2048_S_d0 h_S_) main_v20 main_c_7
  let main_v22 : IVec S_ 1 := andi main_v15 main_v21
  main_v22

def fn {F : FTy → Type} [FloatOps F] (main_arg0 : FVec F S2048x64x64 .f32) (main_arg1 : IVec S2048 32) (main_arg2 : IVec S2048 32) (main_arg3 : FVec F S8192x512 .f32) : IVec S_ 1 :=
  let main_v0 : FVec F S2048x64x64 .f32 := Host.absf main_arg0
  let main_cst : FVec F S_ .f32 := constant S_ .f32 0x7F800000#32
  let main_v1 : FVec F S2048x64x64 .f32 := broadcastInDim S2048x64x64 ![] bcast_S_S2048x64x64 main_cst
  let main_v2 : IVec S2048x64x64 1 := cmpf .olt main_v0 main_v1
  let main_c : IVec S_ 1 := constantI S_ 1 1#1
  let main_v3 : IVec S_ 1 := (fun x v => Host.reduce IntOp.andi x v reducesTo_S2048x64x64_S_d0_1_2 h_S_) main_v2 main_c
  let main_v4 : FVec F S8192x512 .f32 := Host.absf main_arg3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 32 := constantI S_ 32 128#32
  let main_v11 : IVec S2048 32 := broadcastInDim S2048 ![] bcast_S_S2048 main_c_3
  let main_v12 : IVec S2048 1 := cmpi .slt main_arg1 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S2048x64x64 : Shape := ⟨3, ![2048, 64, 64]⟩
abbrev S2048 : Shape := ⟨1, ![2048]⟩
abbrev S8192x512 : Shape := ⟨2, ![8192, 512]⟩
abbrev S1x64x64 : Shape := ⟨3, ![1, 64, 64]⟩
abbrev S64x512 : Shape := ⟨2, ![64, 512]⟩
abbrev S1 : Shape := ⟨1, ![1]⟩
abbrev S64x64 : Shape := ⟨2, ![64, 64]⟩

abbrev nBuf : Space → Nat
  | .hbm => 3
  | .vmem => 5
  | .smem => 2
  | _ => 0

abbrev bufTy : (tb : Table) → Fin (tcTables nBuf tb) → BufTy
  | .hbm, ⟨0, _⟩ => ⟨S2048x64x64, .f32⟩
  | .hbm, ⟨1, _⟩ => ⟨S8192x512, .f32⟩
  | .hbm, ⟨2, _⟩ => ⟨S8192x512, .f32⟩
  | .local _ .vmem, ⟨0, _⟩ => ⟨S1x64x64, .f32⟩
  | .local _ .vmem, ⟨1, _⟩ => ⟨S1x64x64, .f32⟩
  | .local _ .vmem, ⟨2, _⟩ => ⟨S64x512, .f32⟩
  | .local _ .vmem, ⟨3, _⟩ => ⟨S64x512, .f32⟩
  | .local _ .vmem, ⟨4, _⟩ => ⟨S8192x512, .f32⟩
  | .local _ .smem, ⟨0, _⟩ => ⟨S2048, .i32⟩
  | .local _ .smem, ⟨1, _⟩ => ⟨S2048, .i32⟩
  | _, _ => ⟨S2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2048], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v4 : BitVec 32) : BitVec 32 :=
  let c64_i32 : BitVec 32 := 64#32
  let v5 : BitVec 32 := Scalar.muli v4 c64_i32
  v5

def k0_off2 (v4 : BitVec 32) : Fin 2 → Nat :=
  let c64_i32 : BitVec 32 := 64#32
  let v5 : BitVec 32 := Scalar.muli v4 c64_i32
  let v6 : BitVec 32 := v5
  let v13 : Index := Scalar.indexCast v6
  let c0_5 : Index := 0#32
  ![v13.toNat, 0]

def k0_chk1 (v4 : BitVec 32) : Prop :=
  (64 ∣ (k0_mult1 v4).toNat) ∧
  (∀ a, (k0_off2 v4) a + S64x512.size a ≤ S8192x512.size a)
instance k0_chk1.dec : ∀ (v4 : BitVec 32), Decidable (k0_chk1 v4) := fun v4 => decidable_of_iff' _ (Iff.of_eq (k0_chk1.eq_1 v4))
theorem k0_mult1_dvd : ∀ (v4 : BitVec 32) (k0_hw1 : k0_chk1 v4), 64 ∣ (k0_mult1 v4).toNat := fun v4 k0_hw1 => k0_hw1.1
theorem k0_off2_inb : ∀ (v4 : BitVec 32) (k0_hw1 : k0_chk1 v4), ∀ a, (k0_off2 v4) a + S64x512.size a ≤ S8192x512.size a := fun v4 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S2048.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S2048) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  numel1_S1 : S1.numel = 1
  inb_S8192x512_S8192x512_0_0 : ∀ a, (![0, 0] : Fin 2 → Nat) a + S8192x512.size a ≤ S8192x512.size a
  h_S8192x512 : 0 < S8192x512.numel
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  dot_S64x64_S64x512_S64x512_1_0_0_1_n_n_wf : DotDims.WF S64x64 S64x512 S64x512 [1] [0] [0] [1] [] []
  hrank0 : 0 < grid0.rank
  k0_off1_inb : ∀ i : grid0.Coords, ∀ a, (k0_off1 i) a + S1.size a ≤ S2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S2048x64x64.size a
  hwx0_0 : ∀ i : grid0.Coords, EltTy.bits .f32 = 32 ∨ (Rect.block (s := S2048x64x64) S1x64x64.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .f32 = 32 ∨ (Rect.block (s := S8192x512) S8192x512.size (cc0_transform_2 i) (hinb0_2 i)).WholeWords (EltTy.packing .f32)

variable [Facts₀]

def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf

abbrev spec0_0 : Pipeline.WinSpec sig grid0.rank :=
  Pipeline.WinSpec.ofSpec (Memref.whole main_arg0) S1x64x64.size reads0_0 false false 2 stage0_0 sem0_0 nbuf0_0 hstage0_0

abbrev spec0_1 : Pipeline.WinSpec sig grid0.rank :=
  Pipeline.WinSpec.ofSpec (Memref.whole main_arg3) S64x512.size reads0_1 false false 2 stage0_1 sem0_1 nbuf0_1 hstage0_1

abbrev spec0_2 : Pipeline.WinSpec sig grid0.rank :=
  Pipeline.WinSpec.ofSpec (Memref.whole main_v0) S8192x512.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S64x512.size a ≤ S8192x512.size a), EltTy.bits .f32 = 32 ∨ (Rect.block (s := S8192x512) S64x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S2048x64x64 : Shape := ⟨3, ![2048, 64, 64]⟩
abbrev S2048 : Shape := ⟨1, ![2048]⟩
abbrev S8192x512 : Shape := ⟨2, ![8192, 512]⟩
abbrev S128x64x512 : Shape := ⟨3, ![128, 64, 512]⟩
abbrev S_ : Shape := ⟨0, ![]⟩
abbrev S2048x1 : Shape := ⟨2, ![2048, 1]⟩
abbrev S2048x64x512 : Shape := ⟨3, ![2048, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S2048x64x64, .f32⟩
  | .hbm, ⟨1, _⟩ => ⟨S2048, .i32⟩
  | .hbm, ⟨2, _⟩ => ⟨S2048, .i32⟩
  | .hbm, ⟨3, _⟩ => ⟨S8192x512, .f32⟩
  | .hbm, ⟨4, _⟩ => ⟨S128x64x512, .f32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x64x512, .f32⟩
  | .hbm, ⟨14, _⟩ => ⟨S2048x64x512, .f32⟩
  | .hbm, ⟨15, _⟩ => ⟨S_, .f32⟩
  | .hbm, ⟨16, _⟩ => ⟨S128x64x512, .f32⟩
  | .hbm, ⟨17, _⟩ => ⟨S2048x1, .i32⟩
  | .hbm, ⟨18, _⟩ => ⟨S128x64x512, .f32⟩
  | .hbm, ⟨19, _⟩ => ⟨S8192x512, .f32⟩
  | _, _ => ⟨S2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S8192x512_S128x64x512 : S8192x512.ShapeCasts S128x64x512
  bcast_S_S2048 : S_.BroadcastsInDim S2048 (![] : Fin 0 → Fin S2048.rank)
  bcast_S2048_S2048x1_0 : S2048.BroadcastsInDim S2048x1 (![0] : Fin 1 → Fin S2048x1.rank)
  bcast_S_S128x64x512 : S_.BroadcastsInDim S128x64x512 (![] : Fin 0 → Fin S128x64x512.rank)
  shapeCasts_S128x64x512_S8192x512 : S128x64x512.ShapeCasts S8192x512
  gather_S128x64x512_S2048x1_S2048x64x512_12_0_n_n_0_1_164512_wf : GatherDims.WF S128x64x512 S2048x1 S2048x64x512 [1, 2] [0] [] [0] [] 1 ![1, 64, 512]
  dot_S2048x64x64_S2048x64x512_S2048x64x512_2_1_1_2_0_0_wf : DotDims.WF S2048x64x64 S2048x64x512 S2048x64x512 [2] [1] [1] [2] [0] [0]
  scatter_S128x64x512_S2048x1_S2048x64x512_12_0_0_1_wf : ScatterDims.WF S128x64x512 S2048x1 S2048x64x512 [1, 2] [0] [0] 1

variable [Facts₀]

def gather_S128x64x512_S2048x1_S2048x64x512_12_0_n_n_0_1_164512 : GatherDims S128x64x512 S2048x1 S2048x64x512 where
  offsetDims := [1, 2]
  collapsedSliceDims := [0]
  operandBatchingDims := []
  startIndicesBatchingDims := []
  startIndexMap := [0]
  indexVectorDim := 1
  sliceSizes := ![1, 64, 512]
  wf := gather_S128x64x512_S2048x1_S2048x64x512_12_0_n_n_0_1_164512_wf
def dot_S2048x64x64_S2048x64x512_S2048x64x512_2_1_1_2_0_0 : DotDims S2048x64x64 S2048x64x512 S2048x64x512 where
  lhsContracting := [2]
  rhsContracting := [1]
  lhsNonContracting := [1]
  rhsNonContracting := [2]
  lhsBatch := [0]
  rhsBatch := [0]
  wf := dot_S2048x64x64_S2048x64x512_S2048x64x512_2_1_1_2_0_0_wf
def scatter_S128x64x512_S2048x1_S2048x64x512_12_0_0_1 : ScatterDims S128x64x512 S2048x1 S2048x64x512 where
  updateWindowDims := [1, 2]
  insertedWindowDims := [0]
  scatterDimsToOperandDims := [0]
  indexVectorDim := 1
  wf := scatter_S128x64x512_S2048x1_S2048x64x512_12_0_0_1_wf

class Facts : Prop extends Facts₀ where

variable [Facts]
-- ==== Proof.PreDecode.lean ====
/-
  What the precondition says of the two tables: every word of either is a block coordinate, below 128.

  The precondition is a conjunction of four scalar bits, joined by `and`: the two finiteness tests of the float
  arrays, and for each table t the bit  all ((t ≥ 0) & (t < 128)),  a reduction by `and` from 1 of the elementwise
  conjunction of two signed comparisons against broadcast scalar constants. The conjunction being 1 makes each of the
  four bits 1; a reduction by `and` that is 1 met only 1s; an elementwise `and` that is 1 at a position has both
  comparisons 1 there; and a 32-bit word w with 0 ≤ w and w < 128 read SIGNED has its top bit clear, so it reads the
  same unsigned: w < 128 unsigned.
-/
import proofs.«416113_j70695161692195_1_alg».proof.Pre_finite_inputs
import proofs.«416113_j70695161692195_1_alg».proof.Proof.Gen.Pre_finite_inputs
import Idealize.ShloMosaic.Lib.ReduceAll
import Idealize.ShloMosaic.Lib.StableHlo.Predicate

noncomputable section

namespace Cert.Spmm.PreDecode

open Idealize.ShloMosaic Cert.Pre_finite_inputs

variable {F : FTy → Type} [FloatOps F] [Cert.Pre_finite_inputs.Facts]

/-- The rank-0 shape has one index (there is no coordinate to differ in). -/
local instance subsingleton_scalar_idx : Subsingleton S_.Idx := ⟨fun _ _ => funext fun d => d.elim0⟩

/-- A 32-bit word that is nonnegative and below 128 when read signed is below 128 when read unsigned: were its
    unsigned value 2³¹ or more, its signed value would be that minus 2³², negative. -/
theorem word_lt (w : BitVec 32) (h0 : IntOp.cmpi .sge w 0#32 = 1#1) (h1 : IntOp.cmpi .slt w 128#32 = 1#1) :
    w.toNat < 128 := by
  rw [IntOp.cmpi_sge, show (0#32 : BitVec 32).toInt = 0 from by decide] at h0
  rw [IntOp.cmpi_slt, show (128#32 : BitVec 32).toInt = 128 from by decide] at h1
  rw [BitVec.toInt_eq_toNat_cond] at h0 h1
  split at h0 <;> omega

/-- One table's conjunct: if  all ((t ≥ 0) & (t < 128))  is 1 then every word of t is below 128. -/
theorem table_lt (t : IVec S2048 32) (j : S_.Idx)
    (e : Host.reduce IntOp.andi
          (andi (cmpi .sge t (broadcastInDim S2048 ![] Facts.bcast_S_S2048 (constantI S_ 32 0#32)))
                (cmpi .slt t (broadcastInDim S2048 ![] Facts.bcast_S_S2048 (constantI S_ 32 128#32))))
          (constantI S_ 1 1#1) Facts.reducesTo_S2048_S_d0 Facts.h_S_ j = 1#1) :
    ∀ i, (t i).toNat < 128 := by
  intro i
  -- every element of the reduced array is 1, in particular the one at i
  have hi := Host.reduce_andi_all _ _ Facts.reducesTo_S2048_S_d0 Facts.h_S_ j e i
  -- at i the elementwise conjunction is the conjunction of the two comparisons of t i with the constants
  have hi' : IntOp.andi (IntOp.cmpi .sge (t i) 0#32) (IntOp.cmpi .slt (t i) 128#32) = 1#1 := hi
  obtain ⟨h0, h1⟩ := IntOp.andi_eq_one.1 hi'
  exact word_lt (t i) h0 h1

/-- Where the precondition holds, every word of the block-row table and of the block-column table is below 128
    (read unsigned; the precondition compares signed, `0 ≤ w` and `w < 128`). -/
theorem tables_in_range (a0 : FVec F S2048x64x64 .f32) (a1 a2 : IVec S2048 32) (a3 : FVec F S8192x512 .f32)
    (h : Cert.Pre_finite_inputs.fn (F := F) a0 a1 a2 a3 = fun _ => 1#1) :
    (∀ i, (a1 i).toNat < 128) ∧ (∀ i, (a2 i).toNat < 128) := by
  -- the one element of the scalar result
  have h0 := congrFun h (fun d => d.elim0)
  -- the result is ((finite values & finite x) & rows in range) & columns in range, each `&` at the one index
  unfold Cert.Pre_finite_inputs.fn Cert.Pre_finite_inputs.fn_part1 at h0
  obtain ⟨h15, hcols⟩ := IntOp.andi_eq_one.1 (show IntOp.andi _ _ = 1#1 from h0)
  obtain ⟨_, hrows⟩ := IntOp.andi_eq_one.1 (show IntOp.andi _ _ = 1#1 from h15)
  exact ⟨table_lt a1 _ hrows, table_lt a2 _ hcols⟩

end Cert.Spmm.PreDecode

end
-- ==== Proof.Kernel.Region.lean ====
/-
  The one pipelined region of the block-sparse product, as the launch finds it: what its three windows and its two
  prefetched tables hold on entry, the block of each window at a grid point, when the resident output is written back
  (once, after the last block), the kernel body as the pipeline calls it at a point, and the two facts the run needs of
  the tables — every block-column word names a tile of the dense matrix (`Ok`), every block-row word names 64 rows of
  the output (`Hyps`).  Stated for any float instance.
-/
import proofs.«416113_j70695161692195_1_alg».proof.Proof.Gen.Kernel.Launch
import proofs.«416113_j70695161692195_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry: the program is the region alone -/

/-- The buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The two tables -/

/-- The block-row table (0) and the block-column table (1) on entry; there is one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block-column word names a tile inside the dense matrix. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev rowsM : Memref sig .tc .smem S2048 .i32 := Memref.whole main_arg1
abbrev hrowsM : rowsM.IsWhole := Memref.isWhole_whole _
abbrev colsM : Memref sig .tc .smem S2048 .i32 := Memref.whole main_arg2
abbrev hcolsM : colsM.IsWhole := Memref.isWhole_whole _

/-- A table's buffer on core `c`, and the half share of it the body is lent (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c rowsM (tbl m 0) ∗ tbPt c colsM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block-row word of block `t`, as the body reads it. -/
abbrev rowWord (xt : TbBuf (F := F) (0 : Dev nD) rowsM) (i : grid0.Coords) : Elt F .i32 :=
  rowsM.view.readAt (Elt F) (Rect.unit (s := S2048) (k0_off1 i) S1.size (k0_off1_inb i)).toLoadRect xt (Shape.Idx.first (numel1_S1.symm ▸ Nat.one_pos))

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, whether it was fetched there or kept. -/
theorem before_in0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The schedule of the resident output -/

/-- The output's index map is constant, so its one block is written back after the last point only. -/
theorem flush_out (a : (pcfg0 (F := F)).Adm) : ∀ t : Fin (cfg0 a).N, ((cfg0 a).win 2).flush t = true ↔ t.val % 2048 = 2047 :=
  (by decide +kernel : ∀ t : Fin grid0.N, Pipeline.Window.flushOf grid0 true cc0_transform_2 t = true ↔ t.val % 2048 = 2047)

/-! ## The body at a point -/

/-- The reset branch is taken at the first point only. -/
abbrev isFirst (i : grid0.Coords) : Prop := (Scalar.cmpi .ne (Scalar.extui (Scalar.cmpi .eq (BitVec.ofNat 32 (i 0).val) 0#32)) 0#32) = 1#1
theorem isFirst_iff : ∀ t : Fin grid0.N, isFirst (grid0.coords t) ↔ t.val % 2048 = 0 :=
  (by decide +kernel : ∀ t : Fin grid0.N, isFirst (grid0.coords t) ↔ t.val % 2048 = 0)

abbrev ms0 (hO : Ok m) (t : Fin (cfgM m hO).N) : Memref sig .tc .vmem S1x64x64 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S64x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S8192x512 .f32 := spec0_2.stage ((cfgM m hO).slots t 2)
abbrev hs2 (hO : Ok m) (t : Fin (cfgM m hO).N) : (ms2 m hO t).IsWhole := hstage0_2 (((cfgM m hO).slots t 2).cast nbuf0_2)

/-- The kernel body at point `t`, on what the pipeline calls it with. -/
abbrev bodyAt (a : (pcfg0 (F := F)).Adm) (t : Fin (cfg0 a).N) : Prog (TpuEff nD τ sig (Elt F) Λ₀ .tc) PUnit :=
  cc0__spmm_kernel (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## What the body assumes of the block-row words -/

/-- At every point the 64 rows the block-row word names lie inside the output. -/
def Hyps (m : (ℓ : Loc nD τ sig) → Buf (Elt F) ℓ) (hO : Ok m) : Prop :=
  ∀ t : Fin (cfgM m hO).N, k0_chk1 (rowWord (tbl m 0) (grid0.coords t))

/-! ## The frame claim from a run to the library's post -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      ((h c).1 1).trans (((dats 0 c).arrAt_in 1 rfl _).trans (hA c 1))⟩) h

end Cert.Kernel.Region

end
-- ==== Proof.Kernel.Body.lean ====
/-
  The kernel body at one grid point, run on whatever staging buffers the pipeline passes it, with the resident output
  NAMED: after the body the output buffer holds `stepRows prev blk tile w` — the 64 rows the block-row word `w` names
  rewritten to what they held plus the block's product with its tile, every other row untouched —, where `prev` is what
  the buffer held before (a later point), or the zero array (the first point, whose reset branch first overwrites the
  whole buffer, whatever it held).  Stated for any float instance.
-/
import proofs.«416113_j70695161692195_1_alg».proof.Proof.Kernel.Region
import Idealize.ShloMosaic.Lib.WritesUnit
import Idealize.ShloMosaic.Lib.Pipeline.Value

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block's update of the resident output, as a function -/

/-- The first of the 64 output rows the block-row word `w` names. -/
abbrev rowOf (w : BitVec 32) : ℕ := (k0_off2 w) 0

/-- The 64 rows the block-row word names, every column. -/
abbrev rowsRect (w : BitVec 32) (hw : k0_chk1 w) : Rect S8192x512 := Rect.unit (s := S8192x512) (k0_off2 w) S64x512.size (k0_off2_inb w hw)

/-- The output after one block: the 64 rows the word names hold the body's update — those rows as they were, plus the
    block's product with its tile —, every other row what it held. -/
def stepRows (prev : Vec F S8192x512 .f32) (blk : Vec F S1x64x64 .f32) (tile : Vec F S64x512 .f32) (w : BitVec 32) (hw : k0_chk1 w) :
    Vec F S8192x512 .f32 := fun y =>
  if h : rowOf w ≤ (y (0 : Fin 2)).val ∧ (y (0 : Fin 2)).val < rowOf w + 64 then
    k0_pay2 blk tile (View.ld prev (rowsRect w hw))
      (Rect.unitLocal (s := S8192x512) (off := ![rowOf w, 0]) (size := S64x512.size) y (Rect.unit_rows_mem y rfl rfl h))
  else prev y

/-- A whole buffer holding `prev`, after the one store of the update through the rows' rectangle, reads `stepRows`. -/
theorem read_step (M : Memref sig .tc .vmem S8192x512 .f32) (hM : M.IsWhole) (prev : Vec F S8192x512 .f32) (blk : Vec F S1x64x64 .f32)
    (tile : Vec F S64x512 .f32) (w : BitVec 32) (hw : k0_chk1 w) :
    M.view.read (Elt F) (M.view.writes (Elt F) (hM.unread prev)
        [⟨rowsRect w hw, k0_pay2 blk tile (View.ld prev (rowsRect w hw))⟩]) = stepRows prev blk tile w hw := by
  funext y
  rw [View.read_writes_cons_rows M.view (hM.unread prev) (k0_off2_inb w hw) _ [] y (o := rowOf w) (W := 64) rfl rfl rfl]
  unfold stepRows
  simp only [View.writes_nil, hM.read_unread]

/-- Zero offsets, however spelt. -/
theorem hz3 : (![0, 0, 0] : Fin 3 → ℕ) = fun _ => 0 := by funext a; fin_cases a <;> rfl
theorem hz2 : (![0, 0] : Fin 2 → ℕ) = fun _ => 0 := by funext a; fin_cases a <;> rfl

/-- The reset's store: zero through the whole buffer. -/
abbrev zeroPiece : View.Piece (Elt F) S8192x512 .f32 := ⟨Rect.unit (s := S8192x512) ![0, 0] S8192x512.size inb_S8192x512_S8192x512_0_0, k0_pay1⟩

/-- After the reset alone a buffer reads zero everywhere, whatever it held. -/
theorem read_reset (M : Memref sig .tc .vmem S8192x512 .f32) (f : M.view.ty.Contents (Elt F)) :
    M.view.read (Elt F) (M.view.writes (Elt F) f [zeroPiece]) = k0_pay1 (F := F) := by
  rw [View.read_writes_eq_canon _ _ _ (fun y => ⟨_, List.mem_singleton_self _, View.mem_set_unit_zero hz2 inb_S8192x512_S8192x512_0_0 y⟩),
    View.canon_unit_zero hz2]

/-- At the first point — the reset, then the update over the rows reloaded after it — a buffer reads the update of the
    zero array. -/
theorem read_first (M : Memref sig .tc .vmem S8192x512 .f32) (blk : Vec F S1x64x64 .f32) (tile : Vec F S64x512 .f32) (w : BitVec 32) (hw : k0_chk1 w) :
    M.view.read (Elt F) (M.view.writes (Elt F) M.view.junk
        [⟨rowsRect w hw, k0_pay2 blk tile (View.ld (M.view.read (Elt F) (M.view.writes (Elt F) M.view.junk [zeroPiece])) (rowsRect w hw))⟩,
          zeroPiece]) = stepRows (k0_pay1 (F := F)) blk tile w hw := by
  rw [read_reset M M.view.junk]
  funext y
  rw [View.read_writes_cons_rows M.view M.view.junk (k0_off2_inb w hw) _ _ y (o := rowOf w) (W := 64) rfl rfl rfl]
  unfold stepRows
  rw [read_reset M M.view.junk]
set_option maxHeartbeats 1000000 in
/-- A LATER POINT: the reset branch is not taken; the output buffer, holding `xo`, ends at the update of `xo`. The two
    input buffers and the tables' shares come back as they were. -/
theorem runUpdate (c : Dev nD) (i : grid0.Coords) (arg3 : Memref sig .tc .vmem S1x64x64 .f32) (harg3 : arg3.IsWhole) (arg4 : Memref sig .tc .vmem S64x512 .f32) (harg4 : arg4.IsWhole) (arg5 : Memref sig .tc .vmem S8192x512 .f32) (harg5 : arg5.IsWhole) (hc0 : ¬isFirst i)
    (x0 : Vec F S1x64x64 .f32) (x1 : Vec F S64x512 .f32) (xo : Vec F S8192x512 .f32) (xt0 : TbBuf (F := F) c rowsM) (xt1 : TbBuf (F := F) c colsM)
    (hw : k0_chk1 (rowsM.view.readAt (Elt F) (Rect.unit (s := S2048) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare xo ∗ tbPt c rowsM xt0 ∗ tbPt c colsM xt1
            ∗ (iprop(owns (c : Thread nD τ) arg3 fullShare x0 ∗ owns (c : Thread nD τ) arg4 fullShare x1
                ∗ owns (c : Thread nD τ) arg5 fullShare (stepRows xo x0 x1 _ hw) ∗ tbPt c rowsM xt0 ∗ tbPt c colsM xt1) -∗ K ⟨⟩))
          ⊢ wp frame (wpE (defs₀ (F := F)) Variants.none c none) E (cc0__spmm_kernel i rowsM hrowsM colsM hcolsM arg3 harg3 arg4 harg4 arg5 harg5) K := by
    intro E K
    simp only [cc0__spmm_kernel_eq_skeleton]; unfold cc0__spmm_kernel_skel
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec (disch := first | sl_exact hc0 | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_words
      simp only [View.readAt_eq_ld, harg3.read_unread, harg4.read_unread, harg5.read_unread,
        View.ld_unit_zero (S := S1x64x64) hz3, View.ld_unit_zero (S := S64x512) hz2]
      exact read_step arg5 harg5 xo x0 x1 _ hw
    isplitl [HT0]; · iexact HT0
    iexact HT1

set_option maxHeartbeats 1000000 in
/-- THE FIRST POINT: the reset branch is taken; the output buffer, handed over at anything, ends at the update of the
    zero array. -/
theorem runFirst (c : Dev nD) (i : grid0.Coords) (arg3 : Memref sig .tc .vmem S1x64x64 .f32) (harg3 : arg3.IsWhole) (arg4 : Memref sig .tc .vmem S64x512 .f32) (harg4 : arg4.IsWhole) (arg5 : Memref sig .tc .vmem S8192x512 .f32) (harg5 : arg5.IsWhole) (hc0 : isFirst i)
    (x0 : Vec F S1x64x64 .f32) (x1 : Vec F S64x512 .f32) (xt0 : TbBuf (F := F) c rowsM) (xt1 : TbBuf (F := F) c colsM)
    (hw : k0_chk1 (rowsM.view.readAt (Elt F) (Rect.unit (s := S2048) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt c rowsM xt0 ∗ tbPt c colsM xt1
            ∗ (iprop(owns (c : Thread nD τ) arg3 fullShare x0 ∗ owns (c : Thread nD τ) arg4 fullShare x1
                ∗ owns (c : Thread nD τ) arg5 fullShare (stepRows (k0_pay1 (F := F)) x0 x1 _ hw) ∗ tbPt c rowsM xt0 ∗ tbPt c colsM xt1) -∗ K ⟨⟩))
          ⊢ wp frame (wpE (defs₀ (F := F)) Variants.none c none) E (cc0__spmm_kernel i rowsM hrowsM colsM hcolsM arg3 harg3 arg4 harg4 arg5 harg5) K := by
    intro E K
    simp only [cc0__spmm_kernel_eq_skeleton]; unfold cc0__spmm_kernel_skel
    unfold owns
    iintro ⟨⟨%f0, %hf0, H0⟩, ⟨%f1, %hf1, H1⟩, ⟨%d2, %f2, %hf2, H2⟩, HT0, HT1, Hk⟩
    obtain rfl := harg3.eq_unread hf0; obtain rfl := harg4.eq_unread hf1
    sl_exec (disch := first | sl_exact hc0 | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_words
      simp only [View.readAt_eq_ld, harg3.read_unread, harg4.read_unread,
        View.ld_unit_zero (S := S1x64x64) hz3, View.ld_unit_zero (S := S64x512) hz2]
      exact read_first arg5 x0 x1 _ hw
    isplitl [HT0]; · iexact HT0
    iexact HT1

end Cert.Kernel.Region

end
-- ==== Proof.Kernel.Frame.lean ====
/-
  The region's run with the resident output named.  After the body at point `n` the output's staging buffer holds
  `outAt n`: the update (`stepRows`) of the zero array by block 0 at the first point, and of `outAt (n - 1)` by block
  `n` at every later one — the buffer is kept between points, its one block being written back after the last point
  only.  The library's launch theorem then gives the run: the product array ends at `outAt 2047`, the four arguments
  unchanged.  Stated for any float instance, under the two facts about the tables (`Ok`, `Hyps`).
-/
import proofs.«416113_j70695161692195_1_alg».proof.Proof.Kernel.Body
import Idealize.ShloMosaic.Lib.Pipeline.Value

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output holds after each point -/

/-- Block `t`'s values, the tile of the dense matrix its block-column names, and its block-row word. -/
abbrev vblk (hO : Ok m) (c : Dev nD) (t : Fin (cfgM m hO).N) : Vec F S1x64x64 .f32 := iblk m hO c 0 t
abbrev xblk (hO : Ok m) (c : Dev nD) (t : Fin (cfgM m hO).N) : Vec F S64x512 .f32 := iblk m hO c 1 t
abbrev wordAt (hO : Ok m) (t : Fin (cfgM m hO).N) : BitVec 32 := rowWord (tbl m 0) (grid0.coords t)

/-- The output's staging buffer after the body at point `n`: the blocks' updates applied in order, from zero. -/
def outAt (hO : Ok m) (hH : Hyps m hO) (c : Dev nD) : (n : ℕ) → n < (cfgM m hO).N → Vec F S8192x512 .f32
  | 0, hn => stepRows (k0_pay1 (F := F)) (vblk m hO c ⟨0, hn⟩) (xblk m hO c ⟨0, hn⟩) (wordAt m hO ⟨0, hn⟩) (hH ⟨0, hn⟩)
  | n + 1, hn => stepRows (outAt hO hH c n (Nat.lt_of_succ_lt hn)) (vblk m hO c ⟨n + 1, hn⟩) (xblk m hO c ⟨n + 1, hn⟩)
      (wordAt m hO ⟨n + 1, hn⟩) (hH ⟨n + 1, hn⟩)

theorem outAt_first (hO : Ok m) (hH : Hyps m hO) (c : Dev nD) (t : Fin (cfgM m hO).N) (h : t.val = 0) :
    outAt m hO hH c t.val t.isLt = stepRows (k0_pay1 (F := F)) (vblk m hO c t) (xblk m hO c t) (wordAt m hO t) (hH t) := by
  obtain ⟨n, hn⟩ := t
  cases n with
  | zero => rfl
  | succ n => exact absurd h (Nat.succ_ne_zero n)

theorem outAt_later (hO : Ok m) (hH : Hyps m hO) (c : Dev nD) (t : Fin (cfgM m hO).N) (h : t.val ≠ 0) :
    outAt m hO hH c t.val t.isLt
      = stepRows (outAt m hO hH c (t.val - 1) (Nat.lt_of_le_of_lt (Nat.sub_le _ _) t.isLt)) (vblk m hO c t) (xblk m hO c t)
          (wordAt m hO t) (hH t) := by
  obtain ⟨n, hn⟩ := t
  cases n with
  | zero => exact absurd rfl h
  | succ n => rfl

/-! ## The proof data -/

def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO hH c t.val t.isLt
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after_0 (hO : Ok m) (hH : Hyps m hO) (c : Dev nD) (t : Fin (cfgM m hO).N) : (dats m hO hH 0 c).after 0 t = iblk m hO c 0 t := by dsimp only [dats]; try rfl
theorem after_1 (hO : Ok m) (hH : Hyps m hO) (c : Dev nD) (t : Fin (cfgM m hO).N) : (dats m hO hH 0 c).after 1 t = iblk m hO c 1 t := by dsimp only [dats]; try rfl
theorem after_2 (hO : Ok m) (hH : Hyps m hO) (c : Dev nD) (t : Fin (cfgM m hO).N) : (dats m hO hH 0 c).after 2 t = outAt m hO hH c t.val t.isLt := by dsimp only [dats]; try rfl

theorem before_0 (hO : Ok m) (hH : Hyps m hO) (c : Dev nD) (t : Fin (cfgM m hO).N) (d) : (dats m hO hH 0 c).before 0 t d = iblk m hO c 0 t :=
  before_in0 m hO (dats m hO hH 0 c) (A_eq m hO hH c 0) (after_0 m hO hH c) t d
theorem before_1 (hO : Ok m) (hH : Hyps m hO) (c : Dev nD) (t : Fin (cfgM m hO).N) (d) : (dats m hO hH 0 c).before 1 t d = iblk m hO c 1 t :=
  before_in1 m hO (dats m hO hH 0 c) (A_eq m hO hH c 1) (after_1 m hO hH c) t d

/-- At a later point the output's buffer holds what the point before left: it was not written back between. -/
theorem before_2 (hO : Ok m) (hH : Hyps m hO) (c : Dev nD) (t : Fin (cfgM m hO).N) (h0 : t.val ≠ 0) (d) :
    (dats m hO hH 0 c).before 2 t d = outAt m hO hH c (t.val - 1) (Nat.lt_of_le_of_lt (Nat.sub_le _ _) t.isLt) := by
  have hN : t.val < 2048 := lt_of_lt_of_eq t.isLt (show (cfgM m hO).N = 2048 from N_0)
  rw [Dat.before_out_kept _ 2 rfl t h0 (Bool.eq_false_iff.mpr fun h => by have := (flush_out _ _).mp h; dsimp only at this; omega)
    (fun _ => rfl) (fun _ _ => rfl)]
  exact after_2 m hO hH c ⟨t.val - 1, Nat.lt_of_le_of_lt (Nat.sub_le _ _) t.isLt⟩

/-! ## The body obligation -/

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0 m hO t) fullShare ((dats m hO hH 0 c).before 0 t d))
    ∗ (∃ d, owns (c : Thread nD τ) (ms1 m hO t) fullShare ((dats m hO hH 0 c).before 1 t d))
    ∗ (∃ d, owns (c : Thread nD τ) (ms2 m hO t) fullShare ((dats m hO hH 0 c).before 2 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0 m hO t) fullShare ((dats m hO hH 0 c).after 0 t)
    ∗ owns (c : Thread nD τ) (ms1 m hO t) fullShare ((dats m hO hH 0 c).after 1 t)
    ∗ owns (c : Thread nD τ) (ms2 m hO t) fullShare ((dats m hO hH 0 c).after 2 t))

set_option maxHeartbeats 800000 in
/-- The body at any point: the first point runs the reset case from whatever the output buffer holds, a later point the
    update case from what the point before left; the invariant and the tables' shares pass through. -/
theorem sound_body (hO : Ok m) (hH : Hyps m hO) (c : Dev nD) (t : Fin (cfgM m hO).N) :
    bodyPre m hO hH c t ⊢ wp frame (wpE (defs₀ (F := F)) Variants.none c none) Set.univ (bodyAt (adm m hO) t) (fun _ => bodyPost m hO hH c t) := by
  unfold bodyPre bodyPost bodyAt
  simp only [before_0, before_1]
  rw [show (dats m hO hH 0 c).Φ t.succ = (dats m hO hH 0 c).Φ t.castSucc from rfl,
    show (dats m hO hH 0 c).owesAt () t.succ = (dats m hO hH 0 c).owesAt () t.castSucc from rfl,
    after_0, after_1, after_2]
  rw [show (dats m hO hH 0 c).Φ t.castSucc = iprop(Pipeline.ΦA spec0 c ∗ Pipeline.ΦT pre0 (tbl m) c) from rfl, PhiT_eq]
  have hN : t.val < 2048 := lt_of_lt_of_eq t.isLt (show (cfgM m hO).N = 2048 from N_0)
  by_cases h0 : t.val % 2048 = 0
  · have ht : t.val = 0 := by omega
    rw [outAt_first m hO hH c t ht]
    iintro ⟨⟨HΦ, ⟨HT0, HT1⟩⟩, Ho, ⟨%d0, H0⟩, ⟨%d1, H1⟩, ⟨%d2, H2⟩⟩
    iapply ((runFirst c (grid0.coords t) _ _ _ _ _ _ ((isFirst_iff t).mpr h0) (vblk m hO c t) (xblk m hO c t) (tbl m 0) (tbl m 1) (hH t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · have ht : t.val ≠ 0 := by omega
    rw [outAt_later m hO hH c t ht]
    simp only [before_2 m hO hH c t ht]
    iintro ⟨⟨HΦ, ⟨HT0, HT1⟩⟩, Ho, ⟨%d0, H0⟩, ⟨%d1, H1⟩, ⟨%d2, H2⟩⟩
    iapply ((runUpdate c (grid0.coords t) _ _ _ _ _ _ (fun h => h0 ((isFirst_iff t).mp h)) (vblk m hO c t) (xblk m hO c t) _ (tbl m 0) (tbl m 1) (hH t)) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

theorem body_obligation (hO : Ok m) (hH : Hyps m hO) (c : Dev nD) : BodyObligation (dats (F := F) m hO hH 0 c) (defs₀ (F := F)) Variants.none () Set.univ := fun t => by
  rw [bigSep_W0, bigSep_W0]
  exact sound_body m hO hH c t

/-! ## The run -/

set_option backward.isDefEq.respectTransparency.types false in
/-- Every weakly fair execution terminates; every array of the pipeline ends at what the proof data says, every other
    unscoped buffer as the region found it. -/
theorem run_main (hO : Ok m) (hH : Hyps m hO) : θ_run defs (onTc (τ := τ) (main (F := F))) (s₀ m ρ) (Pipeline.FramePost (Pipeline.pin pcfgs fun _ => adm m hO) (dats m hO hH) 0 (V m)) :=
  Pipeline.θ_run_frameP pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- The frame: the program runs, nothing faults, the four argument arrays end unchanged. -/
theorem frame (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO hH) (A_eq m hO hH) (run_main m ρ hO hH)

/-! ## The product array after the run -/

/-- The output's one block is the whole array: an index of the block is that index of the array. -/
theorem out_emb (a : (pcfg0 (F := F)).Adm) (t : Fin (cfg0 a).N) (y : S8192x512.Idx) : (((cfg0 a).win 2).blk t).view.emb y = y := by
  funext b; apply Fin.ext
  match b with
  | ⟨0, _⟩ => show ((cfg0 a).win 2).index t (0 : Fin 2) * 8192 + 1 * (y 0).val = (y 0).val; have : ((cfg0 a).win 2).index t (0 : Fin 2) = 0 := rfl; omega
  | ⟨1, _⟩ => show ((cfg0 a).win 2).index t (1 : Fin 2) * 512 + 1 * (y 1).val = (y 1).val; have : ((cfg0 a).win 2).index t (1 : Fin 2) = 0 := rfl; omega

/-- The last point is in the grid. -/
theorem last_lt (hO : Ok m) : 2047 < (cfgM m hO).N := by rw [show (cfgM m hO).N = 2048 from N_0]; omega

/-- What a writing-back point writes is its block — the whole array — of what the last point left. -/
theorem flushed_out (hO : Ok m) (hH : Hyps m hO) (c : Dev nD) (t : Fin (cfgM m hO).N) (hf : ((cfgM m hO).win 2).flush t = true) :
    (dats m hO hH 0 c).flushed 2 t = (((cfgM m hO).win 2).blk t).view.read (Elt F) (outAt m hO hH c 2047 (last_lt m hO)) := by
  have hN : t.val < 2048 := lt_of_lt_of_eq t.isLt (show (cfgM m hO).N = 2048 from N_0)
  have h := (flush_out (adm m hO) t).mp hf
  have ht : t.val = 2047 := by omega
  obtain ⟨n, hn⟩ := t
  dsimp only at ht
  subst ht
  show ((cfgM m hO).win 2).cut (grid0.coords ⟨2047, hn⟩) ((dats m hO hH 0 c).after 2 ⟨2047, hn⟩) = _
  rw [after_2]
  funext j
  exact (congrArg (outAt m hO hH c 2047 (last_lt m hO)) (out_emb (adm m hO) ⟨2047, hn⟩ j)).symm

/-- THE PRODUCT ARRAY after the run: what the last point left in the resident buffer. -/
theorem final_out (hO : Ok m) (hH : Hyps m hO) (c : Dev nD) :
    (dats m hO hH 0 c).arrAt 2 (cfgM m hO).N = outAt m hO hH c 2047 (last_lt m hO) := by
  refine (dats m hO hH 0 c).arrAt_eq_of_cover 2 _ (fun t hf => flushed_out m hO hH c t hf)
    (fun i => ⟨⟨2047, last_lt m hO⟩, (flush_out _ _).mpr rfl, ?_⟩)
  rw [← out_emb (adm m hO) ⟨2047, last_lt m hO⟩ i]
  exact View.emb_mem_set _ _

/-- The run, read: the product array ends at `outAt 2047`, the arguments unchanged. -/
theorem run_value (hO : Ok m) (hH : Hyps m hO) : θ_run defs (onTc (τ := τ) (main (F := F))) ⟨m, fun _ => 0, ρ⟩ (fun r => ∀ c : Dev nD,
      r.2.mem ((c.tc : Thread nD τ).loc main_v0) = outAt m hO hH c 2047 (last_lt m hO)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (final_out m hO hH c),
      ((h c).1 0).trans (((dats m hO hH 0 c).arrAt_in 0 rfl _).trans (A_eq m hO hH c 0)),
      (h c).2 main_arg1 (by decide : main_arg1 ∈ Pipeline.restRefs sig spec0),
      (h c).2 main_arg2 (by decide : main_arg2 ∈ Pipeline.restRefs sig spec0),
      ((h c).1 1).trans (((dats m hO hH 0 c).arrAt_in 1 rfl _).trans (A_eq m hO hH c 1))⟩) (run_main m ρ hO hH)

end Cert.Kernel.Region

end
-- ==== Proof.Kernel.Tables.lean ====
/-
  The two facts the region's run needs of the tables, from "every word of either table is below 128" (what the
  precondition says, decoded elsewhere): a block-column word below 128 names a 64-row tile inside the 8192-row dense
  matrix (`Ok`), and a block-row word below 128 names 64 rows inside the 8192-row output (`Hyps`): 64 w + 64 ≤ 8192,
  and 64 w does not wrap in 32 bits.  Stated for any float instance.
-/
import proofs.«416113_j70695161692195_1_alg».proof.Proof.Kernel.Body
import Idealize.ShloMosaic.Lib.ValueIdx

set_option maxRecDepth 16384

noncomputable section

namespace Cert.Kernel.Region

open Cert.Kernel Cert.Kernel.Gen
open Idealize.ShloMosaic Idealize.ShloMosaic.TcCoe Idealize.SL.Sem Idealize.ShloMosaic.ValueIdx

variable {F : FTy → Type} [FloatOps F]

variable (m : (ℓ : Loc nD τ sig) → Buf (Elt F) ℓ)

/-- Index `k` of a table. -/
abbrev tix (k : Fin 2048) : S2048.Idx := ix1 k

/-- The one-word rectangle at offset `k` of a table reads index `k`. -/
theorem idx_word (k : Fin 2048) (off : Fin 1 → Nat) (hoff : off 0 = k.val) (inb : ∀ a, off a + S1.size a ≤ S2048.size a) (h1 : 0 < S1.numel) :
    (Rect.unit (s := S2048) off S1.size inb).idx (Shape.Idx.first h1) = tix k := by
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]; omega

/-- The grid's point `t` reads offset `t` of the tables. -/
theorem off_at (t : Fin grid0.N) : k0_off1 (grid0.coords t) 0 = t.val :=
  (by decide +kernel : ∀ t : Fin grid0.N, k0_off1 (grid0.coords t) 0 = t.val) t

/-- The block-row word the body reads at point `t` is the block-row table's word `t`. -/
theorem rowWord_eq (t : Fin grid0.N) :
    rowWord (tbl m 0) (grid0.coords t) = m (((0 : Dev nD) : Thread nD τ).loc main_arg1) (tix ⟨t.val, lt_of_lt_of_eq t.isLt N_0⟩) :=
  congrArg (m (((0 : Dev nD) : Thread nD τ).loc main_arg1)) (idx_word ⟨t.val, lt_of_lt_of_eq t.isLt N_0⟩ _ (off_at t) _ _)

/-- For a word below 128, 64 times it does not wrap: the first of its 64 rows is row `64 w`. -/
theorem rowOf_eq (w : BitVec 32) (hw : w.toNat < 128) : rowOf w = w.toNat * 64 := by
  show (Scalar.indexCast (Scalar.muli w 64#32)).toNat = w.toNat * 64
  have e : (Scalar.indexCast (Scalar.muli w 64#32)).toNat = (w * 64#32).toNat := rfl
  rw [e, BitVec.toNat_mul]
  show w.toNat * 64 % 2 ^ 32 = w.toNat * 64
  omega

/-- The body's side condition holds of a block-row word below 128. -/
theorem chk_of_lt (w : BitVec 32) (hw : w.toNat < 128) : k0_chk1 w := by
  have hr : rowOf w = w.toNat * 64 := rowOf_eq w hw
  refine ⟨?_, fun a => ?_⟩
  · show 64 ∣ (Scalar.muli w 64#32).toNat
    have e : (Scalar.muli w 64#32).toNat = w.toNat * 64 := rowOf_eq w hw
    rw [e]; exact Dvd.intro_left _ rfl
  · fin_cases a
    · show rowOf w + 64 ≤ 8192
      omega
    · show 0 + 512 ≤ 512
      omega

/-- Every block-row word below 128: the body's side condition at every point. -/
theorem hyps_of_lt (hr : ∀ i, (m (((0 : Dev nD) : Thread nD τ).loc main_arg1) i).toNat < 128) (hO : Ok m) : Hyps m hO := fun t => by
  rw [rowWord_eq m t]
  exact chk_of_lt _ (hr _)

/-- The block-column word the dense matrix's index map reads at coordinates `i`. -/
abbrev colWord (pf : pre0.Contents (Elt F)) (i : grid0.Coords) : BitVec 32 :=
  pf.at 1 (Rect.unit (s := S2048) ![(Scalar.indexCast (BitVec.ofNat 32 (i 0).val)).toNat] S1.size (k0_off1_inb i)) numel1_S1

/-- The one-word rectangle at offset \`k\` of a table sits on index \`k\`. -/
theorem emb_word (k : Fin 2048) (off : Fin 1 → Nat) (hoff : off 0 = k.val) (inb : ∀ a, off a + S1.size a ≤ S2048.size a) (h1 : 0 < S1.numel) :
    (Rect.unit (s := S2048) off S1.size inb).emb (Shape.Idx.first h1) = tix k := by
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]; omega

/-- The block-column word the index map reads at point \`t\` is the block-column table's word \`t\`. -/
theorem colWord_eq (t : Fin grid0.N) :
    colWord (tbl m) (grid0.coords t) = m (((0 : Dev nD) : Thread nD τ).loc main_arg2) (tix ⟨t.val, lt_of_lt_of_eq t.isLt N_0⟩) :=
  congrArg (m (((0 : Dev nD) : Thread nD τ).loc main_arg2)) (emb_word ⟨t.val, lt_of_lt_of_eq t.isLt N_0⟩ _ (off_at t) _ _)

/-- The dense matrix's window sits at tile (block-column word, 0). -/
theorem xmap_eq (pf : pre0.Contents (Elt F)) (i : grid0.Coords) :
    cc0_transform_1 k0_off1_inb numel1_S1 pf i = ![(colWord pf i).toNat, 0] := rfl

/-- Every block-column word below 128: every tile the dense matrix's window is sent to lies inside it. -/
theorem ok_of_lt (hc : ∀ i, (m (((0 : Dev nD) : Thread nD τ).loc main_arg2) i).toNat < 128) : Ok m := by
  intro i
  have hl : ∀ x, (tbl m 1 x).toNat < 128 := fun x => hc x
  obtain ⟨w, hw, e⟩ : ∃ w : BitVec 32, w.toNat < 128 ∧ cc0_transform_1 k0_off1_inb numel1_S1 (tbl m) i = ![w.toNat, 0] :=
    ⟨_, hl _, rfl⟩
  refine ⟨fun a => ?_, Or.inl rfl⟩
  rw [e]
  fin_cases a
  · show (w.toNat + 1) * 64 ≤ 8192
    omega
  · show (0 + 1) * 512 ≤ 512
    omega

end Cert.Kernel.Region

end
-- ==== Proof.KernelIdeal.Region.lean ====
/-
  The one pipelined region of the block-sparse product, as the launch finds it: what its three windows and its two
  prefetched tables hold on entry, the block of each window at a grid point, when the resident output is written back
  (once, after the last block), the kernel body as the pipeline calls it at a point, and the two facts the run needs of
  the tables — every block-column word names a tile of the dense matrix (`Ok`), every block-row word names 64 rows of
  the output (`Hyps`).  Stated for any float instance.
-/
import proofs.«416113_j70695161692195_1_alg».proof.Proof.Gen.KernelIdeal.Launch
import proofs.«416113_j70695161692195_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry: the program is the region alone -/

/-- The buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The two tables -/

/-- The block-row table (0) and the block-column table (1) on entry; there is one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block-column word names a tile inside the dense matrix. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev rowsM : Memref sig .tc .smem S2048 .i32 := Memref.whole main_arg1
abbrev hrowsM : rowsM.IsWhole := Memref.isWhole_whole _
abbrev colsM : Memref sig .tc .smem S2048 .i32 := Memref.whole main_arg2
abbrev hcolsM : colsM.IsWhole := Memref.isWhole_whole _

/-- A table's buffer on core `c`, and the half share of it the body is lent (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c rowsM (tbl m 0) ∗ tbPt c colsM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block-row word of block `t`, as the body reads it. -/
abbrev rowWord (xt : TbBuf (F := F) (0 : Dev nD) rowsM) (i : grid0.Coords) : Elt F .i32 :=
  rowsM.view.readAt (Elt F) (Rect.unit (s := S2048) (k0_off1 i) S1.size (k0_off1_inb i)).toLoadRect xt (Shape.Idx.first (numel1_S1.symm ▸ Nat.one_pos))

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, whether it was fetched there or kept. -/
theorem before_in0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The schedule of the resident output -/

/-- The output's index map is constant, so its one block is written back after the last point only. -/
theorem flush_out (a : (pcfg0 (F := F)).Adm) : ∀ t : Fin (cfg0 a).N, ((cfg0 a).win 2).flush t = true ↔ t.val % 2048 = 2047 :=
  (by decide +kernel : ∀ t : Fin grid0.N, Pipeline.Window.flushOf grid0 true cc0_transform_2 t = true ↔ t.val % 2048 = 2047)

/-! ## The body at a point -/

/-- The reset branch is taken at the first point only. -/
abbrev isFirst (i : grid0.Coords) : Prop := (Scalar.cmpi .ne (Scalar.extui (Scalar.cmpi .eq (BitVec.ofNat 32 (i 0).val) 0#32)) 0#32) = 1#1
theorem isFirst_iff : ∀ t : Fin grid0.N, isFirst (grid0.coords t) ↔ t.val % 2048 = 0 :=
  (by decide +kernel : ∀ t : Fin grid0.N, isFirst (grid0.coords t) ↔ t.val % 2048 = 0)

abbrev ms0 (hO : Ok m) (t : Fin (cfgM m hO).N) : Memref sig .tc .vmem S1x64x64 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S64x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S8192x512 .f32 := spec0_2.stage ((cfgM m hO).slots t 2)
abbrev hs2 (hO : Ok m) (t : Fin (cfgM m hO).N) : (ms2 m hO t).IsWhole := hstage0_2 (((cfgM m hO).slots t 2).cast nbuf0_2)

/-- The kernel body at point `t`, on what the pipeline calls it with. -/
abbrev bodyAt (a : (pcfg0 (F := F)).Adm) (t : Fin (cfg0 a).N) : Prog (TpuEff nD τ sig (Elt F) Λ₀ .tc) PUnit :=
  cc0__spmm_kernel (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## What the body assumes of the block-row words -/

/-- At every point the 64 rows the block-row word names lie inside the output. -/
def Hyps (m : (ℓ : Loc nD τ sig) → Buf (Elt F) ℓ) (hO : Ok m) : Prop :=
  ∀ t : Fin (cfgM m hO).N, k0_chk1 (rowWord (tbl m 0) (grid0.coords t))

/-! ## The frame claim from a run to the library's post -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      ((h c).1 1).trans (((dats 0 c).arrAt_in 1 rfl _).trans (hA c 1))⟩) h

end Cert.KernelIdeal.Region

end
-- ==== Proof.KernelIdeal.Body.lean ====
/-
  The kernel body at one grid point, run on whatever staging buffers the pipeline passes it, with the resident output
  NAMED: after the body the output buffer holds `stepRows prev blk tile w` — the 64 rows the block-row word `w` names
  rewritten to what they held plus the block's product with its tile, every other row untouched —, where `prev` is what
  the buffer held before (a later point), or the zero array (the first point, whose reset branch first overwrites the
  whole buffer, whatever it held).  Stated for any float instance.
-/
import proofs.«416113_j70695161692195_1_alg».proof.Proof.KernelIdeal.Region
import Idealize.ShloMosaic.Lib.WritesUnit
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block's update of the resident output, as a function -/

/-- The first of the 64 output rows the block-row word `w` names. -/
abbrev rowOf (w : BitVec 32) : ℕ := (k0_off2 w) 0

/-- The 64 rows the block-row word names, every column. -/
abbrev rowsRect (w : BitVec 32) (hw : k0_chk1 w) : Rect S8192x512 := Rect.unit (s := S8192x512) (k0_off2 w) S64x512.size (k0_off2_inb w hw)

/-- The output after one block: the 64 rows the word names hold the body's update — those rows as they were, plus the
    block's product with its tile —, every other row what it held. -/
def stepRows (prev : Vec F S8192x512 .f32) (blk : Vec F S1x64x64 .f32) (tile : Vec F S64x512 .f32) (w : BitVec 32) (hw : k0_chk1 w) :
    Vec F S8192x512 .f32 := fun y =>
  if h : rowOf w ≤ (y (0 : Fin 2)).val ∧ (y (0 : Fin 2)).val < rowOf w + 64 then
    k0_pay2 blk tile (View.ld prev (rowsRect w hw))
      (Rect.unitLocal (s := S8192x512) (off := ![rowOf w, 0]) (size := S64x512.size) y (Rect.unit_rows_mem y rfl rfl h))
  else prev y

/-- A whole buffer holding `prev`, after the one store of the update through the rows' rectangle, reads `stepRows`. -/
theorem read_step (M : Memref sig .tc .vmem S8192x512 .f32) (hM : M.IsWhole) (prev : Vec F S8192x512 .f32) (blk : Vec F S1x64x64 .f32)
    (tile : Vec F S64x512 .f32) (w : BitVec 32) (hw : k0_chk1 w) :
    M.view.read (Elt F) (M.view.writes (Elt F) (hM.unread prev)
        [⟨rowsRect w hw, k0_pay2 blk tile (View.ld prev (rowsRect w hw))⟩]) = stepRows prev blk tile w hw := by
  funext y
  rw [View.read_writes_cons_rows M.view (hM.unread prev) (k0_off2_inb w hw) _ [] y (o := rowOf w) (W := 64) rfl rfl rfl]
  unfold stepRows
  simp only [View.writes_nil, hM.read_unread]

/-- Zero offsets, however spelt. -/
theorem hz3 : (![0, 0, 0] : Fin 3 → ℕ) = fun _ => 0 := by funext a; fin_cases a <;> rfl
theorem hz2 : (![0, 0] : Fin 2 → ℕ) = fun _ => 0 := by funext a; fin_cases a <;> rfl

/-- The reset's store: zero through the whole buffer. -/
abbrev zeroPiece : View.Piece (Elt F) S8192x512 .f32 := ⟨Rect.unit (s := S8192x512) ![0, 0] S8192x512.size inb_S8192x512_S8192x512_0_0, k0_pay1⟩

/-- After the reset alone a buffer reads zero everywhere, whatever it held. -/
theorem read_reset (M : Memref sig .tc .vmem S8192x512 .f32) (f : M.view.ty.Contents (Elt F)) :
    M.view.read (Elt F) (M.view.writes (Elt F) f [zeroPiece]) = k0_pay1 (F := F) := by
  rw [View.read_writes_eq_canon _ _ _ (fun y => ⟨_, List.mem_singleton_self _, View.mem_set_unit_zero hz2 inb_S8192x512_S8192x512_0_0 y⟩),
    View.canon_unit_zero hz2]

/-- At the first point — the reset, then the update over the rows reloaded after it — a buffer reads the update of the
    zero array. -/
theorem read_first (M : Memref sig .tc .vmem S8192x512 .f32) (blk : Vec F S1x64x64 .f32) (tile : Vec F S64x512 .f32) (w : BitVec 32) (hw : k0_chk1 w) :
    M.view.read (Elt F) (M.view.writes (Elt F) M.view.junk
        [⟨rowsRect w hw, k0_pay2 blk tile (View.ld (M.view.read (Elt F) (M.view.writes (Elt F) M.view.junk [zeroPiece])) (rowsRect w hw))⟩,
          zeroPiece]) = stepRows (k0_pay1 (F := F)) blk tile w hw := by
  rw [read_reset M M.view.junk]
  funext y
  rw [View.read_writes_cons_rows M.view M.view.junk (k0_off2_inb w hw) _ _ y (o := rowOf w) (W := 64) rfl rfl rfl]
  unfold stepRows
  rw [read_reset M M.view.junk]
set_option maxHeartbeats 1000000 in
/-- A LATER POINT: the reset branch is not taken; the output buffer, holding `xo`, ends at the update of `xo`. The two
    input buffers and the tables' shares come back as they were. -/
theorem runUpdate (c : Dev nD) (i : grid0.Coords) (arg3 : Memref sig .tc .vmem S1x64x64 .f32) (harg3 : arg3.IsWhole) (arg4 : Memref sig .tc .vmem S64x512 .f32) (harg4 : arg4.IsWhole) (arg5 : Memref sig .tc .vmem S8192x512 .f32) (harg5 : arg5.IsWhole) (hc0 : ¬isFirst i)
    (x0 : Vec F S1x64x64 .f32) (x1 : Vec F S64x512 .f32) (xo : Vec F S8192x512 .f32) (xt0 : TbBuf (F := F) c rowsM) (xt1 : TbBuf (F := F) c colsM)
    (hw : k0_chk1 (rowsM.view.readAt (Elt F) (Rect.unit (s := S2048) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare xo ∗ tbPt c rowsM xt0 ∗ tbPt c colsM xt1
            ∗ (iprop(owns (c : Thread nD τ) arg3 fullShare x0 ∗ owns (c : Thread nD τ) arg4 fullShare x1
                ∗ owns (c : Thread nD τ) arg5 fullShare (stepRows xo x0 x1 _ hw) ∗ tbPt c rowsM xt0 ∗ tbPt c colsM xt1) -∗ K ⟨⟩))
          ⊢ wp frame (wpE (defs₀ (F := F)) Variants.none c none) E (cc0__spmm_kernel i rowsM hrowsM colsM hcolsM arg3 harg3 arg4 harg4 arg5 harg5) K := by
    intro E K
    simp only [cc0__spmm_kernel_eq_skeleton]; unfold cc0__spmm_kernel_skel
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec (disch := first | sl_exact hc0 | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_words
      simp only [View.readAt_eq_ld, harg3.read_unread, harg4.read_unread, harg5.read_unread,
        View.ld_unit_zero (S := S1x64x64) hz3, View.ld_unit_zero (S := S64x512) hz2]
      exact read_step arg5 harg5 xo x0 x1 _ hw
    isplitl [HT0]; · iexact HT0
    iexact HT1

set_option maxHeartbeats 1000000 in
/-- THE FIRST POINT: the reset branch is taken; the output buffer, handed over at anything, ends at the update of the
    zero array. -/
theorem runFirst (c : Dev nD) (i : grid0.Coords) (arg3 : Memref sig .tc .vmem S1x64x64 .f32) (harg3 : arg3.IsWhole) (arg4 : Memref sig .tc .vmem S64x512 .f32) (harg4 : arg4.IsWhole) (arg5 : Memref sig .tc .vmem S8192x512 .f32) (harg5 : arg5.IsWhole) (hc0 : isFirst i)
    (x0 : Vec F S1x64x64 .f32) (x1 : Vec F S64x512 .f32) (xt0 : TbBuf (F := F) c rowsM) (xt1 : TbBuf (F := F) c colsM)
    (hw : k0_chk1 (rowsM.view.readAt (Elt F) (Rect.unit (s := S2048) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt c rowsM xt0 ∗ tbPt c colsM xt1
            ∗ (iprop(owns (c : Thread nD τ) arg3 fullShare x0 ∗ owns (c : Thread nD τ) arg4 fullShare x1
                ∗ owns (c : Thread nD τ) arg5 fullShare (stepRows (k0_pay1 (F := F)) x0 x1 _ hw) ∗ tbPt c rowsM xt0 ∗ tbPt c colsM xt1) -∗ K ⟨⟩))
          ⊢ wp frame (wpE (defs₀ (F := F)) Variants.none c none) E (cc0__spmm_kernel i rowsM hrowsM colsM hcolsM arg3 harg3 arg4 harg4 arg5 harg5) K := by
    intro E K
    simp only [cc0__spmm_kernel_eq_skeleton]; unfold cc0__spmm_kernel_skel
    unfold owns
    iintro ⟨⟨%f0, %hf0, H0⟩, ⟨%f1, %hf1, H1⟩, ⟨%d2, %f2, %hf2, H2⟩, HT0, HT1, Hk⟩
    obtain rfl := harg3.eq_unread hf0; obtain rfl := harg4.eq_unread hf1
    sl_exec (disch := first | sl_exact hc0 | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_words
      simp only [View.readAt_eq_ld, harg3.read_unread, harg4.read_unread,
        View.ld_unit_zero (S := S1x64x64) hz3, View.ld_unit_zero (S := S64x512) hz2]
      exact read_first arg5 x0 x1 _ hw
    isplitl [HT0]; · iexact HT0
    iexact HT1

end Cert.KernelIdeal.Region

end
-- ==== Proof.KernelIdeal.Frame.lean ====
/-
  The region's run with the resident output named.  After the body at point `n` the output's staging buffer holds
  `outAt n`: the update (`stepRows`) of the zero array by block 0 at the first point, and of `outAt (n - 1)` by block
  `n` at every later one — the buffer is kept between points, its one block being written back after the last point
  only.  The library's launch theorem then gives the run: the product array ends at `outAt 2047`, the four arguments
  unchanged.  Stated for any float instance, under the two facts about the tables (`Ok`, `Hyps`).
-/
import proofs.«416113_j70695161692195_1_alg».proof.Proof.KernelIdeal.Body
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output holds after each point -/

/-- Block `t`'s values, the tile of the dense matrix its block-column names, and its block-row word. -/
abbrev vblk (hO : Ok m) (c : Dev nD) (t : Fin (cfgM m hO).N) : Vec F S1x64x64 .f32 := iblk m hO c 0 t
abbrev xblk (hO : Ok m) (c : Dev nD) (t : Fin (cfgM m hO).N) : Vec F S64x512 .f32 := iblk m hO c 1 t
abbrev wordAt (hO : Ok m) (t : Fin (cfgM m hO).N) : BitVec 32 := rowWord (tbl m 0) (grid0.coords t)

/-- The output's staging buffer after the body at point `n`: the blocks' updates applied in order, from zero. -/
def outAt (hO : Ok m) (hH : Hyps m hO) (c : Dev nD) : (n : ℕ) → n < (cfgM m hO).N → Vec F S8192x512 .f32
  | 0, hn => stepRows (k0_pay1 (F := F)) (vblk m hO c ⟨0, hn⟩) (xblk m hO c ⟨0, hn⟩) (wordAt m hO ⟨0, hn⟩) (hH ⟨0, hn⟩)
  | n + 1, hn => stepRows (outAt hO hH c n (Nat.lt_of_succ_lt hn)) (vblk m hO c ⟨n + 1, hn⟩) (xblk m hO c ⟨n + 1, hn⟩)
      (wordAt m hO ⟨n + 1, hn⟩) (hH ⟨n + 1, hn⟩)

theorem outAt_first (hO : Ok m) (hH : Hyps m hO) (c : Dev nD) (t : Fin (cfgM m hO).N) (h : t.val = 0) :
    outAt m hO hH c t.val t.isLt = stepRows (k0_pay1 (F := F)) (vblk m hO c t) (xblk m hO c t) (wordAt m hO t) (hH t) := by
  obtain ⟨n, hn⟩ := t
  cases n with
  | zero => rfl
  | succ n => exact absurd h (Nat.succ_ne_zero n)

theorem outAt_later (hO : Ok m) (hH : Hyps m hO) (c : Dev nD) (t : Fin (cfgM m hO).N) (h : t.val ≠ 0) :
    outAt m hO hH c t.val t.isLt
      = stepRows (outAt m hO hH c (t.val - 1) (Nat.lt_of_le_of_lt (Nat.sub_le _ _) t.isLt)) (vblk m hO c t) (xblk m hO c t)
          (wordAt m hO t) (hH t) := by
  obtain ⟨n, hn⟩ := t
  cases n with
  | zero => exact absurd rfl h
  | succ n => rfl

/-! ## The proof data -/

def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO hH c t.val t.isLt
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after_0 (hO : Ok m) (hH : Hyps m hO) (c : Dev nD) (t : Fin (cfgM m hO).N) : (dats m hO hH 0 c).after 0 t = iblk m hO c 0 t := by dsimp only [dats]; try rfl
theorem after_1 (hO : Ok m) (hH : Hyps m hO) (c : Dev nD) (t : Fin (cfgM m hO).N) : (dats m hO hH 0 c).after 1 t = iblk m hO c 1 t := by dsimp only [dats]; try rfl
theorem after_2 (hO : Ok m) (hH : Hyps m hO) (c : Dev nD) (t : Fin (cfgM m hO).N) : (dats m hO hH 0 c).after 2 t = outAt m hO hH c t.val t.isLt := by dsimp only [dats]; try rfl

theorem before_0 (hO : Ok m) (hH : Hyps m hO) (c : Dev nD) (t : Fin (cfgM m hO).N) (d) : (dats m hO hH 0 c).before 0 t d = iblk m hO c 0 t :=
  before_in0 m hO (dats m hO hH 0 c) (A_eq m hO hH c 0) (after_0 m hO hH c) t d
theorem before_1 (hO : Ok m) (hH : Hyps m hO) (c : Dev nD) (t : Fin (cfgM m hO).N) (d) : (dats m hO hH 0 c).before 1 t d = iblk m hO c 1 t :=
  before_in1 m hO (dats m hO hH 0 c) (A_eq m hO hH c 1) (after_1 m hO hH c) t d

/-- At a later point the output's buffer holds what the point before left: it was not written back between. -/
theorem before_2 (hO : Ok m) (hH : Hyps m hO) (c : Dev nD) (t : Fin (cfgM m hO).N) (h0 : t.val ≠ 0) (d) :
    (dats m hO hH 0 c).before 2 t d = outAt m hO hH c (t.val - 1) (Nat.lt_of_le_of_lt (Nat.sub_le _ _) t.isLt) := by
  have hN : t.val < 2048 := lt_of_lt_of_eq t.isLt (show (cfgM m hO).N = 2048 from N_0)
  rw [Dat.before_out_kept _ 2 rfl t h0 (Bool.eq_false_iff.mpr fun h => by have := (flush_out _ _).mp h; dsimp only at this; omega)
    (fun _ => rfl) (fun _ _ => rfl)]
  exact after_2 m hO hH c ⟨t.val - 1, Nat.lt_of_le_of_lt (Nat.sub_le _ _) t.isLt⟩

/-! ## The body obligation -/

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0 m hO t) fullShare ((dats m hO hH 0 c).before 0 t d))
    ∗ (∃ d, owns (c : Thread nD τ) (ms1 m hO t) fullShare ((dats m hO hH 0 c).before 1 t d))
    ∗ (∃ d, owns (c : Thread nD τ) (ms2 m hO t) fullShare ((dats m hO hH 0 c).before 2 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0 m hO t) fullShare ((dats m hO hH 0 c).after 0 t)
    ∗ owns (c : Thread nD τ) (ms1 m hO t) fullShare ((dats m hO hH 0 c).after 1 t)
    ∗ owns (c : Thread nD τ) (ms2 m hO t) fullShare ((dats m hO hH 0 c).after 2 t))

set_option maxHeartbeats 800000 in
/-- The body at any point: the first point runs the reset case from whatever the output buffer holds, a later point the
    update case from what the point before left; the invariant and the tables' shares pass through. -/
theorem sound_body (hO : Ok m) (hH : Hyps m hO) (c : Dev nD) (t : Fin (cfgM m hO).N) :
    bodyPre m hO hH c t ⊢ wp frame (wpE (defs₀ (F := F)) Variants.none c none) Set.univ (bodyAt (adm m hO) t) (fun _ => bodyPost m hO hH c t) := by
  unfold bodyPre bodyPost bodyAt
  simp only [before_0, before_1]
  rw [show (dats m hO hH 0 c).Φ t.succ = (dats m hO hH 0 c).Φ t.castSucc from rfl,
    show (dats m hO hH 0 c).owesAt () t.succ = (dats m hO hH 0 c).owesAt () t.castSucc from rfl,
    after_0, after_1, after_2]
  rw [show (dats m hO hH 0 c).Φ t.castSucc = iprop(Pipeline.ΦA spec0 c ∗ Pipeline.ΦT pre0 (tbl m) c) from rfl, PhiT_eq]
  have hN : t.val < 2048 := lt_of_lt_of_eq t.isLt (show (cfgM m hO).N = 2048 from N_0)
  by_cases h0 : t.val % 2048 = 0
  · have ht : t.val = 0 := by omega
    rw [outAt_first m hO hH c t ht]
    iintro ⟨⟨HΦ, ⟨HT0, HT1⟩⟩, Ho, ⟨%d0, H0⟩, ⟨%d1, H1⟩, ⟨%d2, H2⟩⟩
    iapply ((runFirst c (grid0.coords t) _ _ _ _ _ _ ((isFirst_iff t).mpr h0) (vblk m hO c t) (xblk m hO c t) (tbl m 0) (tbl m 1) (hH t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · have ht : t.val ≠ 0 := by omega
    rw [outAt_later m hO hH c t ht]
    simp only [before_2 m hO hH c t ht]
    iintro ⟨⟨HΦ, ⟨HT0, HT1⟩⟩, Ho, ⟨%d0, H0⟩, ⟨%d1, H1⟩, ⟨%d2, H2⟩⟩
    iapply ((runUpdate c (grid0.coords t) _ _ _ _ _ _ (fun h => h0 ((isFirst_iff t).mp h)) (vblk m hO c t) (xblk m hO c t) _ (tbl m 0) (tbl m 1) (hH t)) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

theorem body_obligation (hO : Ok m) (hH : Hyps m hO) (c : Dev nD) : BodyObligation (dats (F := F) m hO hH 0 c) (defs₀ (F := F)) Variants.none () Set.univ := fun t => by
  rw [bigSep_W0, bigSep_W0]
  exact sound_body m hO hH c t

/-! ## The run -/

set_option backward.isDefEq.respectTransparency.types false in
/-- Every weakly fair execution terminates; every array of the pipeline ends at what the proof data says, every other
    unscoped buffer as the region found it. -/
theorem run_main (hO : Ok m) (hH : Hyps m hO) : θ_run defs (onTc (τ := τ) (main (F := F))) (s₀ m ρ) (Pipeline.FramePost (Pipeline.pin pcfgs fun _ => adm m hO) (dats m hO hH) 0 (V m)) :=
  Pipeline.θ_run_frameP pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- The frame: the program runs, nothing faults, the four argument arrays end unchanged. -/
theorem frame (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO hH) (A_eq m hO hH) (run_main m ρ hO hH)

/-! ## The product array after the run -/

/-- The output's one block is the whole array: an index of the block is that index of the array. -/
theorem out_emb (a : (pcfg0 (F := F)).Adm) (t : Fin (cfg0 a).N) (y : S8192x512.Idx) : (((cfg0 a).win 2).blk t).view.emb y = y := by
  funext b; apply Fin.ext
  match b with
  | ⟨0, _⟩ => show ((cfg0 a).win 2).index t (0 : Fin 2) * 8192 + 1 * (y 0).val = (y 0).val; have : ((cfg0 a).win 2).index t (0 : Fin 2) = 0 := rfl; omega
  | ⟨1, _⟩ => show ((cfg0 a).win 2).index t (1 : Fin 2) * 512 + 1 * (y 1).val = (y 1).val; have : ((cfg0 a).win 2).index t (1 : Fin 2) = 0 := rfl; omega

/-- The last point is in the grid. -/
theorem last_lt (hO : Ok m) : 2047 < (cfgM m hO).N := by rw [show (cfgM m hO).N = 2048 from N_0]; omega

/-- What a writing-back point writes is its block — the whole array — of what the last point left. -/
theorem flushed_out (hO : Ok m) (hH : Hyps m hO) (c : Dev nD) (t : Fin (cfgM m hO).N) (hf : ((cfgM m hO).win 2).flush t = true) :
    (dats m hO hH 0 c).flushed 2 t = (((cfgM m hO).win 2).blk t).view.read (Elt F) (outAt m hO hH c 2047 (last_lt m hO)) := by
  have hN : t.val < 2048 := lt_of_lt_of_eq t.isLt (show (cfgM m hO).N = 2048 from N_0)
  have h := (flush_out (adm m hO) t).mp hf
  have ht : t.val = 2047 := by omega
  obtain ⟨n, hn⟩ := t
  dsimp only at ht
  subst ht
  show ((cfgM m hO).win 2).cut (grid0.coords ⟨2047, hn⟩) ((dats m hO hH 0 c).after 2 ⟨2047, hn⟩) = _
  rw [after_2]
  funext j
  exact (congrArg (outAt m hO hH c 2047 (last_lt m hO)) (out_emb (adm m hO) ⟨2047, hn⟩ j)).symm

/-- THE PRODUCT ARRAY after the run: what the last point left in the resident buffer. -/
theorem final_out (hO : Ok m) (hH : Hyps m hO) (c : Dev nD) :
    (dats m hO hH 0 c).arrAt 2 (cfgM m hO).N = outAt m hO hH c 2047 (last_lt m hO) := by
  refine (dats m hO hH 0 c).arrAt_eq_of_cover 2 _ (fun t hf => flushed_out m hO hH c t hf)
    (fun i => ⟨⟨2047, last_lt m hO⟩, (flush_out _ _).mpr rfl, ?_⟩)
  rw [← out_emb (adm m hO) ⟨2047, last_lt m hO⟩ i]
  exact View.emb_mem_set _ _

/-- The run, read: the product array ends at `outAt 2047`, the arguments unchanged. -/
theorem run_value (hO : Ok m) (hH : Hyps m hO) : θ_run defs (onTc (τ := τ) (main (F := F))) ⟨m, fun _ => 0, ρ⟩ (fun r => ∀ c : Dev nD,
      r.2.mem ((c.tc : Thread nD τ).loc main_v0) = outAt m hO hH c 2047 (last_lt m hO)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (final_out m hO hH c),
      ((h c).1 0).trans (((dats m hO hH 0 c).arrAt_in 0 rfl _).trans (A_eq m hO hH c 0)),
      (h c).2 main_arg1 (by decide : main_arg1 ∈ Pipeline.restRefs sig spec0),
      (h c).2 main_arg2 (by decide : main_arg2 ∈ Pipeline.restRefs sig spec0),
      ((h c).1 1).trans (((dats m hO hH 0 c).arrAt_in 1 rfl _).trans (A_eq m hO hH c 1))⟩) (run_main m ρ hO hH)

end Cert.KernelIdeal.Region

end
-- ==== Proof.KernelIdeal.Tables.lean ====
/-
  The two facts the region's run needs of the tables, from "every word of either table is below 128" (what the
  precondition says, decoded elsewhere): a block-column word below 128 names a 64-row tile inside the 8192-row dense
  matrix (`Ok`), and a block-row word below 128 names 64 rows inside the 8192-row output (`Hyps`): 64 w + 64 ≤ 8192,
  and 64 w does not wrap in 32 bits.  Stated for any float instance.
-/
import proofs.«416113_j70695161692195_1_alg».proof.Proof.KernelIdeal.Body
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx

variable {F : FTy → Type} [FloatOps F]

variable (m : (ℓ : Loc nD τ sig) → Buf (Elt F) ℓ)

/-- Index `k` of a table. -/
abbrev tix (k : Fin 2048) : S2048.Idx := ix1 k

/-- The one-word rectangle at offset `k` of a table reads index `k`. -/
theorem idx_word (k : Fin 2048) (off : Fin 1 → Nat) (hoff : off 0 = k.val) (inb : ∀ a, off a + S1.size a ≤ S2048.size a) (h1 : 0 < S1.numel) :
    (Rect.unit (s := S2048) off S1.size inb).idx (Shape.Idx.first h1) = tix k := by
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]; omega

/-- The grid's point `t` reads offset `t` of the tables. -/
theorem off_at (t : Fin grid0.N) : k0_off1 (grid0.coords t) 0 = t.val :=
  (by decide +kernel : ∀ t : Fin grid0.N, k0_off1 (grid0.coords t) 0 = t.val) t

/-- The block-row word the body reads at point `t` is the block-row table's word `t`. -/
theorem rowWord_eq (t : Fin grid0.N) :
    rowWord (tbl m 0) (grid0.coords t) = m (((0 : Dev nD) : Thread nD τ).loc main_arg1) (tix ⟨t.val, lt_of_lt_of_eq t.isLt N_0⟩) :=
  congrArg (m (((0 : Dev nD) : Thread nD τ).loc main_arg1)) (idx_word ⟨t.val, lt_of_lt_of_eq t.isLt N_0⟩ _ (off_at t) _ _)

/-- For a word below 128, 64 times it does not wrap: the first of its 64 rows is row `64 w`. -/
theorem rowOf_eq (w : BitVec 32) (hw : w.toNat < 128) : rowOf w = w.toNat * 64 := by
  show (Scalar.indexCast (Scalar.muli w 64#32)).toNat = w.toNat * 64
  have e : (Scalar.indexCast (Scalar.muli w 64#32)).toNat = (w * 64#32).toNat := rfl
  rw [e, BitVec.toNat_mul]
  show w.toNat * 64 % 2 ^ 32 = w.toNat * 64
  omega

/-- The body's side condition holds of a block-row word below 128. -/
theorem chk_of_lt (w : BitVec 32) (hw : w.toNat < 128) : k0_chk1 w := by
  have hr : rowOf w = w.toNat * 64 := rowOf_eq w hw
  refine ⟨?_, fun a => ?_⟩
  · show 64 ∣ (Scalar.muli w 64#32).toNat
    have e : (Scalar.muli w 64#32).toNat = w.toNat * 64 := rowOf_eq w hw
    rw [e]; exact Dvd.intro_left _ rfl
  · fin_cases a
    · show rowOf w + 64 ≤ 8192
      omega
    · show 0 + 512 ≤ 512
      omega

/-- Every block-row word below 128: the body's side condition at every point. -/
theorem hyps_of_lt (hr : ∀ i, (m (((0 : Dev nD) : Thread nD τ).loc main_arg1) i).toNat < 128) (hO : Ok m) : Hyps m hO := fun t => by
  rw [rowWord_eq m t]
  exact chk_of_lt _ (hr _)

/-- The block-column word the dense matrix's index map reads at coordinates `i`. -/
abbrev colWord (pf : pre0.Contents (Elt F)) (i : grid0.Coords) : BitVec 32 :=
  pf.at 1 (Rect.unit (s := S2048) ![(Scalar.indexCast (BitVec.ofNat 32 (i 0).val)).toNat] S1.size (k0_off1_inb i)) numel1_S1

/-- The one-word rectangle at offset \`k\` of a table sits on index \`k\`. -/
theorem emb_word (k : Fin 2048) (off : Fin 1 → Nat) (hoff : off 0 = k.val) (inb : ∀ a, off a + S1.size a ≤ S2048.size a) (h1 : 0 < S1.numel) :
    (Rect.unit (s := S2048) off S1.size inb).emb (Shape.Idx.first h1) = tix k := by
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]; omega

/-- The block-column word the index map reads at point \`t\` is the block-column table's word \`t\`. -/
theorem colWord_eq (t : Fin grid0.N) :
    colWord (tbl m) (grid0.coords t) = m (((0 : Dev nD) : Thread nD τ).loc main_arg2) (tix ⟨t.val, lt_of_lt_of_eq t.isLt N_0⟩) :=
  congrArg (m (((0 : Dev nD) : Thread nD τ).loc main_arg2)) (emb_word ⟨t.val, lt_of_lt_of_eq t.isLt N_0⟩ _ (off_at t) _ _)

/-- The dense matrix's window sits at tile (block-column word, 0). -/
theorem xmap_eq (pf : pre0.Contents (Elt F)) (i : grid0.Coords) :
    cc0_transform_1 k0_off1_inb numel1_S1 pf i = ![(colWord pf i).toNat, 0] := rfl

/-- Every block-column word below 128: every tile the dense matrix's window is sent to lies inside it. -/
theorem ok_of_lt (hc : ∀ i, (m (((0 : Dev nD) : Thread nD τ).loc main_arg2) i).toNat < 128) : Ok m := by
  intro i
  have hl : ∀ x, (tbl m 1 x).toNat < 128 := fun x => hc x
  obtain ⟨w, hw, e⟩ : ∃ w : BitVec 32, w.toNat < 128 ∧ cc0_transform_1 k0_off1_inb numel1_S1 (tbl m) i = ![w.toNat, 0] :=
    ⟨_, hl _, rfl⟩
  refine ⟨fun a => ?_, Or.inl rfl⟩
  rw [e]
  fin_cases a
  · show (w.toNat + 1) * 64 ≤ 8192
    omega
  · show (0 + 1) * 512 ≤ 512
    omega

end Cert.KernelIdeal.Region

end
-- ==== Proof.Spec.lean ====
/-
  Block-sparse product: the specification.

  The sparse matrix is 2048 dense 64×64 blocks; block `i` sits at block-row `rows i` and block-column `cols i` of a
  128×128 grid of blocks.  Entry (r, n) of its product with a dense 8192×512 matrix `x` is the sum, over the blocks
  whose block-row is `r / 64`, of row `r % 64` of the block against the 64 rows of `x` the block's column names:
      y[r, n] = ∑_{i : rows i = r / 64} ∑_{k < 64} vals[i, r % 64, k] · x[64 · cols i + k, n].
  On the extended reals a finite sum does not depend on the order of its terms, so adding the blocks' contributions one
  block at a time (`accum`) gives the same array (`accum_eq_sum`, proved beside the payload lemmas).
-/
import Idealize.ShloMosaic.PureOps.Ideal
import Idealize.ShloMosaic.Lib.ValueIdx

noncomputable section

namespace Cert.Spmm

open Idealize.ShloMosaic Idealize.ShloMosaic.ValueIdx

/-- The blocks' values, one 64×64 block per entry of the tables. -/
abbrev SVals : Shape := ⟨3, ![2048, 64, 64]⟩
/-- A table: one word per block. -/
abbrev STab : Shape := ⟨1, ![2048]⟩
/-- The dense matrix, and the product. -/
abbrev SX : Shape := ⟨2, ![8192, 512]⟩

/-- Row `k` of the `c`-th tile of 64 rows of the dense matrix: row `64 c + k`. -/
def tileRow (c : Fin 128) (k : Fin 64) : Fin 8192 := ⟨c.val * 64 + k.val, by have := c.isLt; have := k.isLt; omega⟩

@[simp] theorem tileRow_val (c : Fin 128) (k : Fin 64) : (tileRow c k).val = c.val * 64 + k.val := rfl

/-- A table of words, each below 128, as a table of block coordinates. -/
def tabOf (w : STab.Idx → BitVec 32) (h : ∀ i, (w i).toNat < 128) : Fin 2048 → Fin 128 := fun i => ⟨(w (ix1 i)).toNat, h _⟩

@[simp] theorem tabOf_val (w : STab.Idx → BitVec 32) (h : ∀ i, (w i).toNat < 128) (i : Fin 2048) :
    (tabOf w h i).val = (w (ix1 i)).toNat := rfl

/-- Block `i`'s contribution to row `p` of its block-row, at column `n`: row `p` of the block against column `n` of the
    tile of `x` its block-column names. -/
def blockProd (vals : SVals.Idx → EReal) (x : SX.Idx → EReal) (cols : Fin 2048 → Fin 128) (i : Fin 2048) (p : Fin 64)
    (n : Fin 512) : EReal :=
  ∑ k : Fin 64, vals (ix3 i p k) * x (ix2 (tileRow (cols i) k) n)

/-- Row `r` within its block-row. -/
def inBlock (r : Fin 8192) : Fin 64 := ⟨r.val % 64, Nat.mod_lt _ (by norm_num)⟩

@[simp] theorem inBlock_val (r : Fin 8192) : (inBlock r).val = r.val % 64 := rfl

/-- Block `i`'s contribution at entry `y` of the product, were the block on `y`'s block-row. -/
def contrib (vals : SVals.Idx → EReal) (x : SX.Idx → EReal) (cols : Fin 2048 → Fin 128) (i : Fin 2048) (y : SX.Idx) : EReal :=
  blockProd vals x cols i (inBlock (y 0)) (y 1)

/-- The product: entry `y = (r, n)` sums the contributions of the blocks on block-row `r / 64`. -/
def spmm (vals : SVals.Idx → EReal) (x : SX.Idx → EReal) (rows cols : Fin 2048 → Fin 128) : SX.Idx → EReal := fun y =>
  ∑ i ∈ Finset.univ.filter (fun i : Fin 2048 => (rows i).val = (y 0).val / 64), contrib vals x cols i y

/-- The same array built one block at a time from zero: block `t` adds its contribution to the entries of its
    block-row and leaves every other entry as it was. -/
def accum (P : Fin 2048 → SX.Idx → EReal) (rows : Fin 2048 → Fin 128) : ℕ → SX.Idx → EReal
  | 0 => fun _ => 0
  | t + 1 => fun y =>
    if h : t < 2048 then
      if (rows ⟨t, h⟩).val = (y 0).val / 64 then accum P rows t y + P ⟨t, h⟩ y else accum P rows t y
    else accum P rows t y

end Cert.Spmm

end
-- ==== Proof.Payload.lean ====
/-
  The kernel body's two stored values read at an index, on the extended reals: the reset stores zero everywhere, and the
  update stores the rows it loaded plus the block's product with the tile of the dense matrix.
-/
import proofs.«416113_j70695161692195_1_alg».proof.Proof.Gen.KernelIdeal.Skeleton
import proofs.«416113_j70695161692195_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Spmm.Payload

open Idealize.ShloMosaic Idealize.ShloMosaic.ValueIdx Cert.KernelIdeal Cert.KernelIdeal.Gen

/-- The reset's value: zero at every entry. -/
theorem pay1_apply (y : S8192x512.Idx) : k0_pay1 (F := Ideal) y = 0 := by
  unfold k0_pay1
  show Ideal.ofBits .f32 0x00000000#32 = 0
  exact Ideal.ofBits_zero_f32

/-! The block product's operand indices, axis by axis: the left operand (the 64×64 block) is read at the output's row
    and the contraction position, the right operand (the 64×512 tile) at the contraction position and the output's
    column. -/

/-- The left operand's row is the output's row. -/
theorem lhs_dot_S64x64_S64x512_S64x512_1_0_0_1_n_n_0 (i : S64x512.Idx)
    (q : dot_S64x64_S64x512_S64x512_1_0_0_1_n_n.contr.Idx) :
    (dot_S64x64_S64x512_S64x512_1_0_0_1_n_n.lhsIdx i q 0).val = (i 0).val := by
  unfold DotDims.lhsIdx
  rw [dif_neg (show ¬(0 : Fin S64x64.rank) ∈ dot_S64x64_S64x512_S64x512_1_0_0_1_n_n.lhsBatch by decide),
    dif_pos (show (0 : Fin S64x64.rank) ∈ dot_S64x64_S64x512_S64x512_1_0_0_1_n_n.lhsNonContracting by decide)]
  rfl

/-- The left operand's column is the contraction position. -/
theorem lhs_dot_S64x64_S64x512_S64x512_1_0_0_1_n_n_1 (i : S64x512.Idx)
    (q : dot_S64x64_S64x512_S64x512_1_0_0_1_n_n.contr.Idx) :
    (dot_S64x64_S64x512_S64x512_1_0_0_1_n_n.lhsIdx i q 1).val = (q ⟨0, by decide⟩).val :=
  dot_S64x64_S64x512_S64x512_1_0_0_1_n_n.lhsIdx_val_of_single rfl i q

/-- The right operand's row is the contraction position. -/
theorem rhs_dot_S64x64_S64x512_S64x512_1_0_0_1_n_n_0 (i : S64x512.Idx)
    (q : dot_S64x64_S64x512_S64x512_1_0_0_1_n_n.contr.Idx) :
    (dot_S64x64_S64x512_S64x512_1_0_0_1_n_n.rhsIdx i q 0).val = (q ⟨0, by decide⟩).val :=
  dot_S64x64_S64x512_S64x512_1_0_0_1_n_n.rhsIdx_val_of_single rfl i q

/-- The right operand's column is the output's column. -/
theorem rhs_dot_S64x64_S64x512_S64x512_1_0_0_1_n_n_1 (i : S64x512.Idx)
    (q : dot_S64x64_S64x512_S64x512_1_0_0_1_n_n.contr.Idx) :
    (dot_S64x64_S64x512_S64x512_1_0_0_1_n_n.rhsIdx i q 1).val = (i 1).val := by
  unfold DotDims.rhsIdx
  rw [dif_neg (show ¬(1 : Fin S64x512.rank) ∈ dot_S64x64_S64x512_S64x512_1_0_0_1_n_n.rhsBatch by decide),
    dif_pos (show (1 : Fin S64x512.rank) ∈ dot_S64x64_S64x512_S64x512_1_0_0_1_n_n.rhsNonContracting by decide)]
  rfl

/-- The block product into a zero accumulator, at row `p` and column `n`: the sum over the contracted axis of the left
    operand's row `p` against the right operand's column `n`. -/
theorem matmul_zero_apply (a : FVec Ideal S64x64 .bf16) (b : FVec Ideal S64x512 .bf16) (p : Fin 64) (n : Fin 512) :
    matmul (F := Ideal) dot_S64x64_S64x512_S64x512_1_0_0_1_n_n none a b (constant (F := Ideal) S64x512 .f32 0x00000000#32)
        (ix2 p n)
      = ∑ k : Fin 64, a (ix2 p k) * b (ix2 k n) := by
  simp only [matmul]
  rw [Ideal.matmul_constant_zero_apply,
    ← Equiv.sum_comp (contrEquiv1 dot_S64x64_S64x512_S64x512_1_0_0_1_n_n 64 rfl rfl).symm]
  refine Finset.sum_congr rfl fun k _ => ?_
  have hk := contrEquiv1_symm_val dot_S64x64_S64x512_S64x512_1_0_0_1_n_n 64 rfl rfl k
  have el : dot_S64x64_S64x512_S64x512_1_0_0_1_n_n.lhsIdx (ix2 p n)
      ((contrEquiv1 dot_S64x64_S64x512_S64x512_1_0_0_1_n_n 64 rfl rfl).symm k) = ix2 p k :=
    funext fun c => Fin.ext (by
      match c with
      | ⟨0, _⟩ => exact lhs_dot_S64x64_S64x512_S64x512_1_0_0_1_n_n_0 _ _
      | ⟨1, _⟩ => exact (lhs_dot_S64x64_S64x512_S64x512_1_0_0_1_n_n_1 _ _).trans hk)
  have er : dot_S64x64_S64x512_S64x512_1_0_0_1_n_n.rhsIdx (ix2 p n)
      ((contrEquiv1 dot_S64x64_S64x512_S64x512_1_0_0_1_n_n 64 rfl rfl).symm k) = ix2 k n :=
    funext fun c => Fin.ext (by
      match c with
      | ⟨0, _⟩ => exact (rhs_dot_S64x64_S64x512_S64x512_1_0_0_1_n_n_0 _ _).trans hk
      | ⟨1, _⟩ => exact rhs_dot_S64x64_S64x512_S64x512_1_0_0_1_n_n_1 _ _)
  rw [el, er]

/-- The update's value at row `p`, column `n` of the 64 rows it rewrites: what those rows held, plus row `p` of the
    64×64 block against column `n` of the 64×512 tile (the change of float format before the product is the identity
    on the extended reals, and the product into a zero accumulator is the plain sum over the contracted axis). -/
theorem pay2_apply (v7 : Vec Ideal S1x64x64 .f32) (v10 v14 : Vec Ideal S64x512 .f32) (p : Fin 64) (n : Fin 512) :
    k0_pay2 (F := Ideal) v7 v10 v14 (ix2 p n) = v14 (ix2 p n) + ∑ k : Fin 64, v7 (ix3 0 p k) * v10 (ix2 k n) := by
  unfold k0_pay2
  refine (addf_apply _ _ _).trans ?_
  rw [shapeCast_self, matmul_zero_apply]
  refine congrArg (v14 (ix2 p n) + ·) (Finset.sum_congr rfl fun k _ => ?_)
  rw [truncf_apply, truncf_apply, shapeCast_1ab_ab_apply]

end Cert.Spmm.Payload

end
-- ==== Proof.Accum.lean ====
/-
  Adding the blocks' contributions one block at a time gives the sum over the blocks of a block-row: a finite sum on the
  extended reals does not depend on the order of its terms.
-/
import proofs.«416113_j70695161692195_1_alg».proof.Proof.Spec

noncomputable section

namespace Cert.Spmm

open Idealize.ShloMosaic Idealize.ShloMosaic.ValueIdx

/-- The blocks below `t + 1` on a block-row are the blocks below `t` on it, together with block `t` when block `t`
    sits on that block-row. -/
theorem filter_succ_of_eq (rows : Fin 2048 → Fin 128) (b t : ℕ) (h : t < 2048) (hr : (rows ⟨t, h⟩).val = b) :
    Finset.univ.filter (fun i : Fin 2048 => i.val < t + 1 ∧ (rows i).val = b)
      = insert (⟨t, h⟩ : Fin 2048) (Finset.univ.filter (fun i : Fin 2048 => i.val < t ∧ (rows i).val = b)) := by
  ext i
  simp only [Finset.mem_filter, Finset.mem_univ, true_and, Finset.mem_insert]
  constructor
  · rintro ⟨hlt, hri⟩
    by_cases hit : i.val = t
    · exact Or.inl (Fin.ext hit)
    · exact Or.inr ⟨by omega, hri⟩
  · rintro (hi | ⟨hlt, hri⟩)
    · subst hi
      exact ⟨Nat.lt_succ_self _, hr⟩
    · exact ⟨by omega, hri⟩

/-- When block `t` sits on another block-row, the blocks below `t + 1` on the block-row are those below `t`. -/
theorem filter_succ_of_ne (rows : Fin 2048 → Fin 128) (b t : ℕ) (h : t < 2048) (hr : ¬ (rows ⟨t, h⟩).val = b) :
    Finset.univ.filter (fun i : Fin 2048 => i.val < t + 1 ∧ (rows i).val = b)
      = Finset.univ.filter (fun i : Fin 2048 => i.val < t ∧ (rows i).val = b) := by
  ext i
  simp only [Finset.mem_filter, Finset.mem_univ, true_and]
  constructor
  · rintro ⟨hlt, hri⟩
    refine ⟨?_, hri⟩
    by_contra hnot
    have hit : i.val = t := by omega
    have hi : i = ⟨t, h⟩ := Fin.ext hit
    subst hi
    exact hr hri
  · rintro ⟨hlt, hri⟩
    exact ⟨by omega, hri⟩

/-- After the first `t` blocks have been added, entry `y` holds the sum of the contributions of those of the first `t`
    blocks that sit on its block-row. -/
theorem accum_eq_sum_lt (P : Fin 2048 → SX.Idx → EReal) (rows : Fin 2048 → Fin 128) (y : SX.Idx) :
    ∀ t : ℕ, t ≤ 2048 →
      accum P rows t y
        = ∑ i ∈ Finset.univ.filter (fun i : Fin 2048 => i.val < t ∧ (rows i).val = (y 0).val / 64), P i y := by
  intro t
  induction t with
  | zero =>
    intro _
    have hempty : Finset.univ.filter (fun i : Fin 2048 => i.val < 0 ∧ (rows i).val = (y 0).val / 64) = ∅ := by
      ext i
      simp
    rw [hempty, Finset.sum_empty]
    rfl
  | succ t ih =>
    intro ht
    have h : t < 2048 := by omega
    have ih' := ih (by omega)
    by_cases hr : (rows ⟨t, h⟩).val = (y 0).val / 64
    · have hstep : accum P rows (t + 1) y = accum P rows t y + P ⟨t, h⟩ y := by
        simp only [accum, dif_pos h, if_pos hr]
      have hnot : (⟨t, h⟩ : Fin 2048) ∉
          Finset.univ.filter (fun i : Fin 2048 => i.val < t ∧ (rows i).val = (y 0).val / 64) := by
        simp
      rw [hstep, ih', filter_succ_of_eq rows _ t h hr, Finset.sum_insert hnot, add_comm]
    · have hstep : accum P rows (t + 1) y = accum P rows t y := by
        simp only [accum, dif_pos h, if_neg hr]
      rw [hstep, ih', filter_succ_of_ne rows _ t h hr]

/-- After every block has been added, entry `y` holds the sum of the contributions of the blocks on its block-row. -/
theorem accum_eq_sum (P : Fin 2048 → SX.Idx → EReal) (rows : Fin 2048 → Fin 128) (y : SX.Idx) :
    accum P rows 2048 y = ∑ i ∈ Finset.univ.filter (fun i : Fin 2048 => (rows i).val = (y 0).val / 64), P i y := by
  rw [accum_eq_sum_lt P rows y 2048 (le_refl _)]
  refine Finset.sum_congr ?_ (fun _ _ => rfl)
  ext i
  simp only [Finset.mem_filter, Finset.mem_univ, true_and]
  exact ⟨fun hi => hi.2, fun hi => ⟨i.isLt, hi⟩⟩

end Cert.Spmm

end
-- ==== Proof.KernelValue.lean ====
/-
  The kernel's product array is the specification's.  After the last point the resident output holds the blocks'
  updates applied in order from zero (`outAt`).  Read at an entry `y = (r, n)` on the extended reals, block `t`'s
  update adds, on the 64 rows of the block-row its word names — that is, when `rows t = r / 64` — the product of row
  `r % 64` of the block with column `n` of the tile of the dense matrix its block-column names, and leaves the other
  rows alone: one step of `accum`.  So `outAt n = accum (n + 1)` by induction, and `accum 2048` is the sum over the
  blocks of the block-row (`accum_eq_sum`): the specification.
-/
import proofs.«416113_j70695161692195_1_alg».proof.Proof.KernelIdeal.Frame
import proofs.«416113_j70695161692195_1_alg».proof.Proof.KernelIdeal.Tables
import proofs.«416113_j70695161692195_1_alg».proof.Proof.Payload
import proofs.«416113_j70695161692195_1_alg».proof.Proof.Accum

set_option maxRecDepth 16384

noncomputable section

namespace Cert.Spmm.KernelValue

open Cert.KernelIdeal Cert.KernelIdeal.Gen Cert.KernelIdeal.Region Cert.Spmm
open Idealize.ShloMosaic Idealize.ShloMosaic.TcCoe Idealize.SL.Sem Idealize.ShloMosaic.ValueIdx

variable (m : (ℓ : Loc nD τ sig) → Buf (Elt Ideal) ℓ)

/-- The four argument arrays as launched (there is one device). -/
abbrev valsA : SVals.Idx → EReal := m (((0 : Dev nD) : Thread nD τ).loc main_arg0)
abbrev rowsW : STab.Idx → BitVec 32 := m (((0 : Dev nD) : Thread nD τ).loc main_arg1)
abbrev colsW : STab.Idx → BitVec 32 := m (((0 : Dev nD) : Thread nD τ).loc main_arg2)
abbrev xA : SX.Idx → EReal := m (((0 : Dev nD) : Thread nD τ).loc main_arg3)

/-- Point `t` as a block number. -/
abbrev blockNo (hO : Ok m) (t : Fin (cfgM m hO).N) : Fin 2048 := ⟨t.val, lt_of_lt_of_eq t.isLt (show (cfgM m hO).N = 2048 from N_0)⟩

/-! ## The windows' blocks at an index -/

/-- The values' window at point `t` sits at block (t, 0, 0). -/
theorem vmap (t : Fin grid0.N) :
    cc0_transform_0 (grid0.coords t) 0 = t.val ∧ cc0_transform_0 (grid0.coords t) 1 = 0 ∧ cc0_transform_0 (grid0.coords t) 2 = 0 :=
  (by decide +kernel : ∀ t : Fin grid0.N,
    cc0_transform_0 (grid0.coords t) 0 = t.val ∧ cc0_transform_0 (grid0.coords t) 1 = 0 ∧ cc0_transform_0 (grid0.coords t) 2 = 0) t

/-- Entry (0, p, k) of the values' block at point `t` is entry (t, p, k) of the values. -/
theorem vblk_apply (hO : Ok m) (t : Fin (cfgM m hO).N) (p k : Fin 64) :
    vblk m hO 0 t (ix3 (0 : Fin 1) p k) = valsA m (ix3 (blockNo m hO t) p k) := by
  obtain ⟨e0, e1, e2⟩ := vmap t
  show V m 0 main_arg0 ((((cfgM m hO).win 0).blk t).view.emb (ix3 (0 : Fin 1) p k)) = _
  refine congrArg (m (((0 : Dev nD) : Thread nD τ).loc main_arg0)) ?_
  funext a; apply Fin.ext
  match a with
  | ⟨0, _⟩ => show cc0_transform_0 (grid0.coords t) 0 * 1 + 1 * 0 = t.val; omega
  | ⟨1, _⟩ => show cc0_transform_0 (grid0.coords t) 1 * 64 + 1 * p.val = p.val; omega
  | ⟨2, _⟩ => show cc0_transform_0 (grid0.coords t) 2 * 64 + 1 * k.val = k.val; omega

/-- Entry (k, n) of the dense matrix's block at point `t` is entry (64 · cols t + k, n) of the dense matrix. -/
theorem xblk_apply (hO : Ok m) (hc : ∀ i, (colsW m i).toNat < 128) (t : Fin (cfgM m hO).N) (k : Fin 64) (n : Fin 512) :
    xblk m hO 0 t (ix2 k n) = xA m (ix2 (tileRow (tabOf (colsW m) hc (blockNo m hO t)) k) n) := by
  have hw : colWord (tbl m) (grid0.coords t) = colsW m (ix1 (blockNo m hO t)) := colWord_eq m t
  show V m 0 main_arg3 ((((cfgM m hO).win 1).blk t).view.emb (ix2 k n)) = _
  refine congrArg (m (((0 : Dev nD) : Thread nD τ).loc main_arg3)) ?_
  funext a; apply Fin.ext
  match a with
  | ⟨0, _⟩ =>
    show cc0_transform_1 k0_off1_inb numel1_S1 (tbl m) (grid0.coords t) 0 * 64 + 1 * k.val = (colsW m (ix1 (blockNo m hO t))).toNat * 64 + k.val
    rw [xmap_eq]
    show (colWord (tbl m) (grid0.coords t)).toNat * 64 + 1 * k.val = _
    rw [hw]; omega
  | ⟨1, _⟩ =>
    show cc0_transform_1 k0_off1_inb numel1_S1 (tbl m) (grid0.coords t) 1 * 512 + 1 * n.val = n.val
    rw [xmap_eq]
    show 0 * 512 + 1 * n.val = n.val
    omega

/-! ## One block's update, read at an entry -/

/-- Block `t`'s update of `prev` at entry `y`: on its block-row, `prev` plus the block's contribution; elsewhere `prev`. -/
theorem step_apply (hO : Ok m) (hH : Hyps m hO) (hr : ∀ i, (rowsW m i).toNat < 128) (hc : ∀ i, (colsW m i).toNat < 128)
    (prev : Vec Ideal S8192x512 .f32) (t : Fin (cfgM m hO).N) (y : SX.Idx) :
    stepRows prev (vblk m hO 0 t) (xblk m hO 0 t) (wordAt m hO t) (hH t) y
      = if (tabOf (rowsW m) hr (blockNo m hO t)).val = (y 0).val / 64 then
          prev y + contrib (valsA m) (xA m) (tabOf (colsW m) hc) (blockNo m hO t) y
        else prev y := by
  have hw : wordAt m hO t = rowsW m (ix1 (blockNo m hO t)) := rowWord_eq m t
  have hlt : (rowsW m (ix1 (blockNo m hO t))).toNat < 128 := hr _
  have hro : rowOf (wordAt m hO t) = (rowsW m (ix1 (blockNo m hO t))).toNat * 64 := by rw [hw]; exact rowOf_eq _ hlt
  have hy0 : (y 0).val < 8192 := (y 0).isLt
  unfold stepRows
  by_cases h : (tabOf (rowsW m) hr (blockNo m hO t)).val = (y 0).val / 64
  · have h' : (rowsW m (ix1 (blockNo m hO t))).toNat = (y 0).val / 64 := h
    have hin : rowOf (wordAt m hO t) ≤ (y (0 : Fin 2)).val ∧ (y (0 : Fin 2)).val < rowOf (wordAt m hO t) + 64 := by
      rw [hro]; omega
    rw [dif_pos hin, if_pos h]
    have eL : (Rect.unitLocal (s := S8192x512) (off := ![rowOf (wordAt m hO t), 0]) (size := S64x512.size) y
        (Rect.unit_rows_mem y rfl rfl hin) : S64x512.Idx) = ix2 (inBlock (y 0)) (y 1) := by
      funext a; apply Fin.ext
      match a with
      | ⟨0, _⟩ => show (y 0).val - rowOf (wordAt m hO t) = (y 0).val % 64; omega
      | ⟨1, _⟩ => show (y 1).val - 0 = (y 1).val; omega
    rw [eL]
    refine (Cert.Spmm.Payload.pay2_apply (vblk m hO 0 t) (xblk m hO 0 t) (View.ld prev (rowsRect (wordAt m hO t) (hH t)))
      (inBlock (y 0)) (y 1)).trans ?_
    refine congrArg₂ (· + ·) ?_ ?_
    · show prev ((rowsRect (wordAt m hO t) (hH t)).idx (ix2 (inBlock (y 0)) (y 1))) = prev y
      refine congrArg prev ?_
      funext a; apply Fin.ext
      match a with
      | ⟨0, _⟩ => show rowOf (wordAt m hO t) + 1 * ((y 0).val % 64) = (y 0).val; omega
      | ⟨1, _⟩ => show 0 + 1 * (y 1).val = (y 1).val; omega
    · unfold contrib blockProd
      refine Finset.sum_congr rfl fun k _ => ?_
      exact congrArg₂ (· * ·) (vblk_apply m hO t (inBlock (y 0)) k) (xblk_apply m hO hc t k (y 1))
  · have h' : ¬ (rowsW m (ix1 (blockNo m hO t))).toNat = (y 0).val / 64 := h
    have hout : ¬ (rowOf (wordAt m hO t) ≤ (y (0 : Fin 2)).val ∧ (y (0 : Fin 2)).val < rowOf (wordAt m hO t) + 64) := by
      rw [hro]; omega
    rw [dif_neg hout, if_neg h]

/-! ## The fold is `accum` -/

theorem accum_succ (P : Fin 2048 → SX.Idx → EReal) (R : Fin 2048 → Fin 128) (n : ℕ) (h : n < 2048) (y : SX.Idx) :
    accum P R (n + 1) y = if (R ⟨n, h⟩).val = (y 0).val / 64 then accum P R n y + P ⟨n, h⟩ y else accum P R n y := by
  show (if h : n < 2048 then (if (R ⟨n, h⟩).val = (y 0).val / 64 then accum P R n y + P ⟨n, h⟩ y else accum P R n y) else accum P R n y) = _
  rw [dif_pos h]

/-- After point `n` the output holds the first `n + 1` blocks' contributions. -/
theorem outAt_eq (hO : Ok m) (hH : Hyps m hO) (hr : ∀ i, (rowsW m i).toNat < 128) (hc : ∀ i, (colsW m i).toNat < 128) :
    ∀ (n : ℕ) (hn : n < (cfgM m hO).N), outAt m hO hH 0 n hn
      = accum (contrib (valsA m) (xA m) (tabOf (colsW m) hc)) (tabOf (rowsW m) hr) (n + 1)
  | 0, hn => by
    funext y
    show stepRows (k0_pay1 (F := Ideal)) (vblk m hO 0 ⟨0, hn⟩) (xblk m hO 0 ⟨0, hn⟩) (wordAt m hO ⟨0, hn⟩) (hH ⟨0, hn⟩) y = _
    rw [step_apply m hO hH hr hc _ ⟨0, hn⟩ y, accum_succ _ _ 0 (by omega) y, Cert.Spmm.Payload.pay1_apply]
    rfl
  | n + 1, hn => by
    funext y
    show stepRows (outAt m hO hH 0 n (Nat.lt_of_succ_lt hn)) (vblk m hO 0 ⟨n + 1, hn⟩) (xblk m hO 0 ⟨n + 1, hn⟩) (wordAt m hO ⟨n + 1, hn⟩) (hH ⟨n + 1, hn⟩) y = _
    have hN : n + 1 < 2048 := lt_of_lt_of_eq hn (show (cfgM m hO).N = 2048 from N_0)
    rw [step_apply m hO hH hr hc _ ⟨n + 1, hn⟩ y, accum_succ _ _ (n + 1) hN y, outAt_eq hO hH hr hc n (Nat.lt_of_succ_lt hn)]

/-- THE KERNEL'S PRODUCT ARRAY is the specification's. -/
theorem kernel_value (hO : Ok m) (hH : Hyps m hO) (hr : ∀ i, (rowsW m i).toNat < 128) (hc : ∀ i, (colsW m i).toNat < 128) :
    outAt m hO hH 0 2047 (last_lt m hO) = spmm (valsA m) (xA m) (tabOf (rowsW m) hr) (tabOf (colsW m) hc) := by
  rw [outAt_eq m hO hH hr hc 2047 (last_lt m hO)]
  funext y
  exact accum_eq_sum _ _ y

end Cert.Spmm.KernelValue

end
-- ==== Proof.RefValue.lean ====
/-
  The reference program's result is the block-sparse product of the specification: it gathers, per block, the tile of
  the dense matrix the block's column names, multiplies every block with its tile, and adds every product into the
  block-row its row word names; read at an entry that is the sum, over the blocks on the entry's block-row, of the
  block's row against the tile's column.
-/
import proofs.«416113_j70695161692195_1_alg».proof.Proof.Gen.ReferenceIdeal.Run
import proofs.«416113_j70695161692195_1_alg».proof.Proof.Gen.ReferenceIdeal.Read
import proofs.«416113_j70695161692195_1_alg».proof.Proof.Spec
import Idealize.ShloMosaic.Lib.StableHlo.Predicate

noncomputable section

namespace Cert.Spmm.Reference

open Idealize.ShloMosaic Idealize.ShloMosaic.ValueIdx Cert.ReferenceIdeal Cert.ReferenceIdeal.Gen

/-- A word below 128, read as a signed number, is its value. -/
theorem toInt_of_lt {w : BitVec 32} (h : w.toNat < 128) : w.toInt = (w.toNat : Int) :=
  StableHlo.Predicate.toInt_eq_toNat_of_lt (by omega)

section Gather

/-- The dimension numbers of the gather of tiles: the first operand axis is the start index's and collapsed, the two
    others are the slice's offsets. -/
local notation "gd" => gather_S128x64x512_S2048x1_S2048x64x512_12_0_n_n_0_1_164512

/-- On the first operand axis the read is at the clamped start index, which for a word below 128 is the word. -/
theorem gather_axis0 (idx : IVec S2048x1 32) (b : Fin 2048) (k : Fin 64) (n : Fin 512) (h : (idx (ix2 b 0)).toNat < 128) :
    (GatherDims.operandIdx gd (ix3 b k n) idx 0).val = (idx (ix2 b 0)).toNat := by
  show GatherDims.start gd _ _ 0 + GatherDims.batchCoord gd _ 0 + GatherDims.offCoord gd _ 0 = _
  rw [GatherDims.batchCoord_eq_zero _ _ _ (by decide), GatherDims.offCoord_eq_zero _ _ _ (by decide)]
  unfold GatherDims.start
  rw [dif_pos (by decide)]
  have hsi : GatherDims.siIdx gd (ix3 b k n)
      ⟨List.idxOf (0 : Fin S128x64x512.rank) (GatherDims.startIndexMap gd), List.idxOf_lt_length_iff.2 (by decide)⟩ = ix2 b 0 := by
    funext c; refine Fin.ext ?_
    match c with
    | ⟨0, _⟩ => rfl
    | ⟨1, _⟩ => rfl
  rw [hsi, toInt_of_lt h]
  show min (Int.toNat ((idx (ix2 b 0)).toNat : Int)) (128 - 1) + 0 + 0 = _
  rw [Int.toNat_natCast]
  omega

/-- On the second operand axis the read is at the result's second coordinate. -/
theorem gather_axis1 (idx : IVec S2048x1 32) (b : Fin 2048) (k : Fin 64) (n : Fin 512) :
    (GatherDims.operandIdx gd (ix3 b k n) idx 1).val = k.val := by
  show GatherDims.start gd _ _ 1 + GatherDims.batchCoord gd _ 1 + GatherDims.offCoord gd _ 1 = _
  rw [GatherDims.batchCoord_eq_zero _ _ _ (by decide)]
  unfold GatherDims.start GatherDims.offCoord
  rw [dif_neg (by decide), dif_pos (by decide)]
  refine (Nat.zero_add _).trans ?_
  rfl

/-- On the third operand axis the read is at the result's third coordinate. -/
theorem gather_axis2 (idx : IVec S2048x1 32) (b : Fin 2048) (k : Fin 64) (n : Fin 512) :
    (GatherDims.operandIdx gd (ix3 b k n) idx 2).val = n.val := by
  show GatherDims.start gd _ _ 2 + GatherDims.batchCoord gd _ 2 + GatherDims.offCoord gd _ 2 = _
  rw [GatherDims.batchCoord_eq_zero _ _ _ (by decide)]
  unfold GatherDims.start GatherDims.offCoord
  rw [dif_neg (by decide), dif_pos (by decide)]
  refine (Nat.zero_add _).trans ?_
  rfl

/-- The gather of 64×512 tiles along the first axis, read at (b, k, n): the start index of block b, a word below 128,
    is inside the operand, so the clamp leaves it and the read is the operand's at (that word, k, n). -/
theorem gather_read {α : Type} (x : S128x64x512.Idx → α) (idx : IVec S2048x1 32) (b : Fin 2048) (k : Fin 64) (n : Fin 512)
    (h : (idx (ix2 b 0)).toNat < 128) :
    Host.gather gd x idx (ix3 b k n) = x (ix3 ⟨(idx (ix2 b 0)).toNat, h⟩ k n) := by
  unfold Host.gather
  congr 1
  funext a
  refine Fin.ext ?_
  match a with
  | ⟨0, _⟩ => exact gather_axis0 idx b k n h
  | ⟨1, _⟩ => exact gather_axis1 idx b k n
  | ⟨2, _⟩ => exact gather_axis2 idx b k n

end Gather

section Scatter

/-- The dimension numbers of the scatter of products: the first operand axis is the scatter index's and inserted, the
    two others are the update window's. -/
local notation "sd" => scatter_S128x64x512_S2048x1_S2048x64x512_12_0_0_1

/-- On the first operand axis the window starts at the block's word, read signed. -/
theorem scatter_start0 (idx : IVec S2048x1 32) (j : S2048x64x512.Idx) :
    ScatterDims.start sd j idx 0 = (idx (ix2 (j 0) 0)).toInt := by
  unfold ScatterDims.start
  rw [dif_pos (by decide)]
  have hsi : ScatterDims.siIdx sd j
      ⟨List.idxOf (0 : Fin S128x64x512.rank) (ScatterDims.scatterDimsToOperandDims sd), List.idxOf_lt_length_iff.2 (by decide)⟩
        = ix2 (j 0) 0 := by
    funext c; refine Fin.ext ?_
    match c with
    | ⟨0, _⟩ => rfl
    | ⟨1, _⟩ => rfl
  exact congrArg (fun p => (idx p).toInt) hsi

/-- On the two other axes it starts at zero. -/
theorem scatter_start1 (idx : IVec S2048x1 32) (j : S2048x64x512.Idx) : ScatterDims.start sd j idx 1 = 0 := by
  unfold ScatterDims.start
  rw [dif_neg (by decide)]
theorem scatter_start2 (idx : IVec S2048x1 32) (j : S2048x64x512.Idx) : ScatterDims.start sd j idx 2 = 0 := by
  unfold ScatterDims.start
  rw [dif_neg (by decide)]

/-- The window coordinate is zero on the inserted axis and the update's second and third coordinates on the others. -/
theorem scatter_window0 (j : S2048x64x512.Idx) : ScatterDims.window sd j 0 = 0 := by
  unfold ScatterDims.window
  rw [dif_neg (by decide)]
theorem scatter_window1 (j : S2048x64x512.Idx) : ScatterDims.window sd j 1 = (j 1).val := by
  unfold ScatterDims.window
  rw [dif_pos (by decide)]
  rfl
theorem scatter_window2 (j : S2048x64x512.Idx) : ScatterDims.window sd j 2 = (j 2).val := by
  unfold ScatterDims.window
  rw [dif_pos (by decide)]
  rfl

/-- With every word below 128 no update is dropped: update (b, m, n) lands at (word of b, m, n). -/
theorem scatter_lands (idx : IVec S2048x1 32) (h : ∀ p, (idx p).toNat < 128) (j : S2048x64x512.Idx) :
    ScatterDims.resultIdx? sd j idx = some (ix3 ⟨(idx (ix2 (j 0) 0)).toNat, h _⟩ (j 1) (j 2)) := by
  have hw := h (ix2 (j 0) 0)
  have ht := toInt_of_lt hw
  have j1 : (j 1).val < 64 := (j 1).isLt
  have j2 : (j 2).val < 512 := (j 2).isLt
  have hall : ∀ a, 0 ≤ ScatterDims.start sd j idx a + ScatterDims.window sd j a
      ∧ ScatterDims.start sd j idx a + ScatterDims.window sd j a < S128x64x512.size a := by
    intro a
    match a with
    | ⟨0, _⟩ =>
      show 0 ≤ ScatterDims.start sd j idx 0 + ScatterDims.window sd j 0
        ∧ ScatterDims.start sd j idx 0 + ScatterDims.window sd j 0 < ((128 : Nat) : Int)
      rw [scatter_start0, scatter_window0, ht]
      omega
    | ⟨1, _⟩ =>
      show 0 ≤ ScatterDims.start sd j idx 1 + ScatterDims.window sd j 1
        ∧ ScatterDims.start sd j idx 1 + ScatterDims.window sd j 1 < ((64 : Nat) : Int)
      rw [scatter_start1, scatter_window1]
      omega
    | ⟨2, _⟩ =>
      show 0 ≤ ScatterDims.start sd j idx 2 + ScatterDims.window sd j 2
        ∧ ScatterDims.start sd j idx 2 + ScatterDims.window sd j 2 < ((512 : Nat) : Int)
      rw [scatter_start2, scatter_window2]
      omega
  unfold ScatterDims.resultIdx?
  rw [dif_pos hall]
  congr 1
  funext a
  refine Fin.ext ?_
  match a with
  | ⟨0, _⟩ =>
    show (ScatterDims.start sd j idx 0 + ScatterDims.window sd j 0).toNat = (idx (ix2 (j 0) 0)).toNat
    rw [scatter_start0, scatter_window0, ht]
    omega
  | ⟨1, _⟩ =>
    show (ScatterDims.start sd j idx 1 + ScatterDims.window sd j 1).toNat = (j 1).val
    rw [scatter_start1, scatter_window1]
    omega
  | ⟨2, _⟩ =>
    show (ScatterDims.start sd j idx 2 + ScatterDims.window sd j 2).toNat = (j 2).val
    rw [scatter_start2, scatter_window2]
    omega

/-- So an update lands at (g, m, n) exactly when its block's word is g and its two other coordinates are m and n. -/
theorem scatter_lands_iff (idx : IVec S2048x1 32) (h : ∀ p, (idx p).toNat < 128) (j : S2048x64x512.Idx)
    (g : Fin 128) (m : Fin 64) (n : Fin 512) :
    ScatterDims.resultIdx? sd j idx = some (ix3 g m n)
      ↔ (idx (ix2 (j 0) 0)).toNat = g.val ∧ (j 1).val = m.val ∧ (j 2).val = n.val := by
  rw [scatter_lands idx h j]
  constructor
  · intro e
    have e' := Option.some.inj e
    exact ⟨congrArg Fin.val (congrFun e' 0), congrArg Fin.val (congrFun e' 1), congrArg Fin.val (congrFun e' 2)⟩
  · rintro ⟨e0, e1, e2⟩
    congr 1
    funext a
    refine Fin.ext ?_
    match a with
    | ⟨0, _⟩ => exact e0
    | ⟨1, _⟩ => exact e1
    | ⟨2, _⟩ => exact e2

/-- The accumulating scatter read at (g, m, n): the operand's element plus the products' elements (b, m, n) over the
    blocks b whose word is g. -/
theorem scatter_read (x : S128x64x512.Idx → EReal) (idx : IVec S2048x1 32) (upd : S2048x64x512.Idx → EReal)
    (h : ∀ p, (idx p).toNat < 128) (g : Fin 128) (m : Fin 64) (n : Fin 512) :
    Ideal.hostScatterAdd sd x idx upd (ix3 g m n)
      = x (ix3 g m n) + ∑ b ∈ Finset.univ.filter (fun b : Fin 2048 => (idx (ix2 b 0)).toNat = g.val), upd (ix3 b m n) := by
  unfold Ideal.hostScatterAdd
  congr 1
  have hback : ∀ j : S2048x64x512.Idx, ScatterDims.resultIdx? sd j idx = some (ix3 g m n) → ix3 (j 0) m n = j := by
    intro j hj
    obtain ⟨_, e1, e2⟩ := (scatter_lands_iff idx h j g m n).1 hj
    funext a
    match a with
    | ⟨0, _⟩ => rfl
    | ⟨1, _⟩ => exact Fin.ext e1.symm
    | ⟨2, _⟩ => exact Fin.ext e2.symm
  refine Finset.sum_bij' (fun j _ => j 0) (fun b _ => ix3 b m n) ?_ ?_ ?_ ?_ ?_
  · intro j hj
    exact Finset.mem_filter.2 ⟨Finset.mem_univ _, ((scatter_lands_iff idx h j g m n).1 (Finset.mem_filter.1 hj).2).1⟩
  · intro b hb
    exact Finset.mem_filter.2 ⟨Finset.mem_univ _, (scatter_lands_iff idx h (ix3 b m n) g m n).2 ⟨(Finset.mem_filter.1 hb).2, rfl, rfl⟩⟩
  · intro j hj
    exact hback j (Finset.mem_filter.1 hj).2
  · intro b _
    rfl
  · intro j hj
    exact congrArg upd (hback j (Finset.mem_filter.1 hj).2).symm

end Scatter

/-- The negative-index rule leaves a word below 128 as it is: such a word is not below zero as a signed number. -/
theorem cols_word (x2 : (⟨S2048, .i32⟩ : BufTy).Contents (Elt Ideal)) (h2 : ∀ i, (x2 i).toNat < 128) (i : S2048.Idx) :
    Read.val_main_v5 (F := Ideal) x2 i = x2 i := by
  rw [Read.val_main_v5_apply, Read.val_main_v2_apply, Read.val_main_v1_apply, Read.val_main_c_apply]
  have hc : IntOp.cmpi .slt (x2 i) 0#32 = 0#1 := eq_zero_of_ne_one fun e => by
    have hlt := (StableHlo.Predicate.slt_iff_toNat (a := x2 i) (b := 0#32) (by have := h2 i; omega) (by decide)).1 e
    exact absurd hlt (Nat.not_lt_zero _)
  rw [hc]
  exact select_zero _ _

/-- With every word of both tables a block coordinate, the reference's last stage is the specification's product. -/
theorem reference_eq (x0 : (⟨S2048x64x64, .f32⟩ : BufTy).Contents (Elt Ideal))
    (x1 x2 : (⟨S2048, .i32⟩ : BufTy).Contents (Elt Ideal)) (x3 : (⟨S8192x512, .f32⟩ : BufTy).Contents (Elt Ideal))
    (h1 : ∀ i, (x1 i).toNat < 128) (h2 : ∀ i, (x2 i).toNat < 128) :
    Cert.ReferenceIdeal.Read.val_main_v12 (F := Ideal) x0 x1 x2 x3
      = Cert.Spmm.spmm x0 x3 (Cert.Spmm.tabOf x1 h1) (Cert.Spmm.tabOf x2 h2) := by
  funext y
  have y0 : (y 0).val < 8192 := (y 0).isLt
  have y1 : (y 1).val < 512 := (y 1).isLt
  -- the entry's place in the [128, 64, 512] array: block-row r / 64, row r % 64 of it, column n
  have hy : Read.idx_main_v12 y = ix3 (⟨(y 0).val / 64, by omega⟩ : Fin 128) (inBlock (y 0)) (y 1) := by
    funext a
    refine Fin.ext ?_
    match a with
    | ⟨0, _⟩ => show ((y 0).val * 512 + (y 1).val) / 32768 = (y 0).val / 64; omega
    | ⟨1, _⟩ => show ((y 0).val * 512 + (y 1).val) / 512 % 64 = (y 0).val % 64; omega
    | ⟨2, _⟩ => show ((y 0).val * 512 + (y 1).val) % 512 = (y 1).val; omega
  -- the row table as a column holds the row words, each below 128
  have hw : ∀ b : Fin 2048, Read.val_main_v10 (F := Ideal) x1 (ix2 b 0) = x1 (ix1 b) := fun b => by
    rw [Read.val_main_v10_apply]
    exact congrArg x1 (funext fun a => match a with | ⟨0, _⟩ => rfl)
  have hidx : ∀ p, (Read.val_main_v10 (F := Ideal) x1 p).toNat < 128 := fun p => by
    rw [Read.val_main_v10_apply]; exact h1 _
  -- the column table after the negative-index rule, as a column, holds the column words
  have hv6 : ∀ b : Fin 2048, Read.val_main_v6 (F := Ideal) x2 (ix2 b 0) = x2 (ix1 b) := fun b => by
    rw [Read.val_main_v6_apply, cols_word x2 h2]
    exact congrArg x2 (funext fun a => match a with | ⟨0, _⟩ => rfl)
  rw [Read.val_main_v12_apply, hy]
  show Ideal.hostScatterAdd scatter_S128x64x512_S2048x1_S2048x64x512_12_0_0_1 (Read.val_main_v9 (F := Ideal))
    (Read.val_main_v10 (F := Ideal) x1) (Read.val_main_v8 (F := Ideal) x0 x2 x3) _ = _
  refine (scatter_read _ _ _ hidx _ _ _).trans ?_
  rw [Read.val_main_v9_apply, Read.val_main_cst_apply,
    show (FloatOps.ofBits (F := Ideal) .f32 0x00000000#32 : EReal) = 0 from Ideal.ofBits_zero_f32, zero_add]
  -- both sides sum over the blocks on the entry's block-row
  unfold spmm
  refine Finset.sum_congr (Finset.filter_congr fun b _ => by rw [hw b, tabOf_val]) fun b _ => ?_
  -- one block's product at the entry against its contribution in the specification
  rw [Read.val_main_v8_apply]
  unfold contrib blockProd
  refine Finset.sum_congr rfl fun k _ => ?_
  have el : Read.lidx_main_v8 (ix3 b (inBlock (y 0)) (y 1)) k = ix3 b (inBlock (y 0)) k :=
    funext fun a => match a with | ⟨0, _⟩ => rfl | ⟨1, _⟩ => rfl | ⟨2, _⟩ => rfl
  have er : Read.ridx_main_v8 (ix3 b (inBlock (y 0)) (y 1)) k = ix3 b k (y 1) :=
    funext fun a => match a with | ⟨0, _⟩ => rfl | ⟨1, _⟩ => rfl | ⟨2, _⟩ => rfl
  refine congrArg₂ (· * ·) (congrArg x0 el) ((congrArg (Read.val_main_v7 (F := Ideal) x2 x3) er).trans ?_)
  -- the gathered tile at (b, k, n) is the dense matrix at row 64 · (column word of b) + k
  have hb : (Read.val_main_v6 (F := Ideal) x2 (ix2 b 0)).toNat < 128 := by rw [hv6]; exact h2 _
  refine (gather_read (Read.val_main_v0 (F := Ideal) x3) (Read.val_main_v6 (F := Ideal) x2) b k (y 1) hb).trans ?_
  rw [Read.val_main_v0_apply]
  refine congrArg x3 (funext fun a => Fin.ext ?_)
  match a with
  | ⟨0, _⟩ =>
    show (((Read.val_main_v6 (F := Ideal) x2 (ix2 b 0)).toNat * 64 + k.val) * 512 + (y 1).val) / 512
      = (tabOf x2 h2 b).val * 64 + k.val
    rw [hv6, tabOf_val]
    omega
  | ⟨1, _⟩ =>
    show (((Read.val_main_v6 (F := Ideal) x2 (ix2 b 0)).toNat * 64 + k.val) * 512 + (y 1).val) % 512 = (y 1).val
    omega

end Cert.Spmm.Reference

end
-- ==== Proof.lean ====
/-
  A block-sparse matrix product on the TPU against its jnp reference, over the extended reals.

  The sparse matrix is 2048 dense 64×64 blocks placed on a 128×128 grid of blocks by two integer tables (block-row and
  block-column of each block); the product with a dense 8192×512 matrix x is
      y[r, n] = ∑_{i : rows i = r / 64} ∑_{k < 64} values[i, r % 64, k] · x[64 · cols i + k, n].
  THE KERNEL walks the 2048 blocks in order with the whole output resident: the first step zeroes it, and step i adds
  the product of block i with the 64-row tile of x its block-column names into the 64 output rows its block-row names
  (the tile fetched through an index map that reads the block-column table; the rows addressed by the block-row word).
  THE REFERENCE gathers the tiles, multiplies every block with its tile, and adds every product into its block-row
  (a scatter-add into zeros).  On the extended reals a finite sum does not depend on the order of its terms, so both
  are the sum above: no finiteness of the float inputs is used.
  THE PRECONDITION says, beside finiteness, that every word of both tables is a block coordinate, 0 ≤ w < 128 — outside
  that range the reference itself indexes outside the arrays it indexes, and the kernel's window and rows would leave
  theirs; it is what makes the kernel run at all (its frame), at the word level and idealized alike.
  Both programs' results are read against one specification (Proof/Spec.lean): the kernel's through its run with the
  output named point by point (Proof/KernelIdeal/, Proof/KernelValue.lean), the reference's through its run read one
  operation at a time (Proof/RefValue.lean).  The idealization rewrote nothing, so `preserves` is trivial.
-/
import proofs.«416113_j70695161692195_1_alg».proof.Defs
import proofs.«416113_j70695161692195_1_alg».proof.Proof.Gen.Kernel
import proofs.«416113_j70695161692195_1_alg».proof.Proof.Gen.Kernel.Skeleton
import proofs.«416113_j70695161692195_1_alg».proof.Proof.Gen.Kernel.Launch
import proofs.«416113_j70695161692195_1_alg».proof.Proof.Gen.Kernel.Flash
import proofs.«416113_j70695161692195_1_alg».proof.Proof.Gen.KernelIdeal
import proofs.«416113_j70695161692195_1_alg».proof.Proof.Gen.KernelIdeal.Skeleton
import proofs.«416113_j70695161692195_1_alg».proof.Proof.Gen.KernelIdeal.Launch
import proofs.«416113_j70695161692195_1_alg».proof.Proof.Gen.KernelIdeal.Flash
import proofs.«416113_j70695161692195_1_alg».proof.Proof.Gen.ReferenceIdeal
import proofs.«416113_j70695161692195_1_alg».proof.Proof.Gen.ReferenceIdeal.Run
import proofs.«416113_j70695161692195_1_alg».proof.Proof.Gen.ReferenceIdeal.Read
import proofs.«416113_j70695161692195_1_alg».proof.Proof.Gen.Pre_finite_inputs
import proofs.«416113_j70695161692195_1_alg».proof.Proof.PreDecode
import proofs.«416113_j70695161692195_1_alg».proof.Proof.Kernel.Frame
import proofs.«416113_j70695161692195_1_alg».proof.Proof.Kernel.Tables
import proofs.«416113_j70695161692195_1_alg».proof.Proof.KernelIdeal.Frame
import proofs.«416113_j70695161692195_1_alg».proof.Proof.KernelIdeal.Tables
import proofs.«416113_j70695161692195_1_alg».proof.Proof.KernelValue
import proofs.«416113_j70695161692195_1_alg».proof.Proof.RefValue
import Idealize.ShloMosaic.Adequacy
import Idealize.ShloMosaic.Init

noncomputable section

namespace Cert.Proof

open Idealize.ShloMosaic Idealize.ShloMosaic.TcCoe Idealize.SL.Sem

/-! ## The precondition, decoded at each program's memory -/

/-- At the word-level kernel's memory: every word of both tables is below 128. -/
theorem tables_k (m : (ℓ : Loc Cert.Kernel.nD Cert.Kernel.τ Cert.Kernel.sig) → Buf (Elt Bits) ℓ) (h : Cert.Pre_Kernel m) :
    (∀ i, (m (((0 : Dev Cert.Kernel.nD) : Thread Cert.Kernel.nD Cert.Kernel.τ).loc Cert.Kernel.main_arg1) i).toNat < 128)
    ∧ (∀ i, (m (((0 : Dev Cert.Kernel.nD) : Thread Cert.Kernel.nD Cert.Kernel.τ).loc Cert.Kernel.main_arg2) i).toNat < 128) :=
  Cert.Spmm.PreDecode.tables_in_range (F := Bits) _ _ _ _ (h 0)

/-- At the idealized kernel's memory: the same. -/
theorem tables_ki (m : (ℓ : Loc Cert.KernelIdeal.nD Cert.KernelIdeal.τ Cert.KernelIdeal.sig) → Buf (Elt Ideal) ℓ) (h : Cert.Pre_KernelIdeal m) :
    (∀ i, (m (((0 : Dev Cert.KernelIdeal.nD) : Thread Cert.KernelIdeal.nD Cert.KernelIdeal.τ).loc Cert.KernelIdeal.main_arg1) i).toNat < 128)
    ∧ (∀ i, (m (((0 : Dev Cert.KernelIdeal.nD) : Thread Cert.KernelIdeal.nD Cert.KernelIdeal.τ).loc Cert.KernelIdeal.main_arg2) i).toNat < 128) :=
  Cert.Spmm.PreDecode.tables_in_range (F := Ideal) _ _ _ _ (h 0)

/-! ## The claims -/

/-- The word-level kernel runs: its window stays inside the dense matrix and its rows inside the output. -/
theorem frame_k : Cert.frame_Kernel := fun m ρ h =>
  Cert.Kernel.Region.frame m ρ (Cert.Kernel.Region.ok_of_lt m (tables_k m h).2)
    (Cert.Kernel.Region.hyps_of_lt m (tables_k m h).1 _)

/-- The idealized kernel runs, for the same reason. -/
theorem frame_ki : Cert.frame_KernelIdeal := fun m ρ h =>
  Cert.KernelIdeal.Region.frame m ρ (Cert.KernelIdeal.Region.ok_of_lt m (tables_ki m h).2)
    (Cert.KernelIdeal.Region.hyps_of_lt m (tables_ki m h).1 _)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's product of the argument arrays they agree on. -/
theorem algebraic : Cert.algebraic_KernelIdeal_ReferenceIdeal := by
  intro m ρ m' ρ' hpre hagree
  have t := tables_ki m hpre
  have hO := Cert.KernelIdeal.Region.ok_of_lt m t.2
  have hH := Cert.KernelIdeal.Region.hyps_of_lt m t.1 hO
  refine ⟨fun _ => Cert.Spmm.spmm (Cert.Spmm.KernelValue.valsA m) (Cert.Spmm.KernelValue.xA m)
    (Cert.Spmm.tabOf (Cert.Spmm.KernelValue.rowsW m) t.1) (Cert.Spmm.tabOf (Cert.Spmm.KernelValue.colsW m) t.2), ?_, ?_⟩
  · refine (θ_run Cert.KernelIdeal.defs _ _).mono (fun _ h c => ⟨?_, (h c).2⟩) (Cert.KernelIdeal.Region.run_value m ρ hO hH)
    obtain rfl : c = 0 := Subsingleton.elim _ _
    exact ((h 0).1).trans (Cert.Spmm.KernelValue.kernel_value m hO hH t.1 t.2)
  · refine (θ_run Cert.ReferenceIdeal.defs _ _).mono (fun _ h c => ⟨?_, (h c).2⟩) (Cert.ReferenceIdeal.Value.run (F := Ideal) m' ρ')
    obtain rfl : c = 0 := Subsingleton.elim _ _
    refine ((h 0).1).trans ?_
    rw [Cert.ReferenceIdeal.Read.val_main_v12_eq, (hagree 0).1, (hagree 0).2.1, (hagree 0).2.2.1, (hagree 0).2.2.2]
    exact Cert.Spmm.Reference.reference_eq _ _ _ _ t.1 t.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
